-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x50x2048 : Shape := ⟨4, ![16, 32, 50, 2048]⟩
abbrev S32x2048 : Shape := ⟨2, ![32, 2048]⟩
abbrev S32 : Shape := ⟨1, ![32]⟩
abbrev S_ : Shape := ⟨0, ![]⟩

class Facts : Prop where
  bcast_S_S16x32x50x2048 : S_.BroadcastsInDim S16x32x50x2048 (![] : Fin 0 → Fin S16x32x50x2048.rank)
  reducesTo_S16x32x50x2048_S_d0_1_2_3 : S16x32x50x2048.ReducesTo [0, 1, 2, 3] S_
  h_S_ : 0 < S_.numel
  bcast_S_S32 : S_.BroadcastsInDim S32 (![] : Fin 0 → Fin S32.rank)
  reducesTo_S32_S_d0 : S32.ReducesTo [0] S_
  bcast_S_S32x2048 : S_.BroadcastsInDim S32x2048 (![] : Fin 0 → Fin S32x2048.rank)
  reducesTo_S32x2048_S_d0_1 : S32x2048.ReducesTo [0, 1] S_

variable [Facts]

def fn_part1 {F : FTy → Type} [FloatOps F] (main_v10 : IVec S_ 1) (main_v15 : IVec S32x2048 1) (main_c_5 : IVec S_ 1) : IVec S_ 1 :=
  let main_v16 : IVec S_ 1 := (fun x v => Host.reduce IntOp.andi x v reducesTo_S32x2048_S_d0_1 h_S_) main_v15 main_c_5
  let main_v17 : IVec S_ 1 := andi main_v10 main_v16
  main_v17

def fn {F : FTy → Type} [FloatOps F] (main_arg0 : FVec F S16x32x50x2048 .f32) (main_arg1 : IVec S32x2048 32) (main_arg2 : IVec S32 32) : IVec S_ 1 :=
  let main_v0 : FVec F S16x32x50x2048 .f32 := Host.absf main_arg0
  let main_cst : FVec F S_ .f32 := constant S_ .f32 0x7F800000#32
  let main_v1 : FVec F S16x32x50x2048 .f32 := broadcastInDim S16x32x50x2048 ![] bcast_S_S16x32x50x2048 main_cst
  let main_v2 : IVec S16x32x50x2048 1 := cmpf .olt main_v0 main_v1
  let main_c : IVec S_ 1 := constantI S_ 1 1#1
  let main_v3 : IVec S_ 1 := (fun x v => Host.reduce IntOp.andi x v reducesTo_S16x32x50x2048_S_d0_1_2_3 h_S_) main_v2 main_c
  let main_c_0 : IVec S_ 32 := constantI S_ 32 0#32
  let main_v4 : IVec S32 32 := broadcastInDim S32 ![] bcast_S_S32 main_c_0
  let main_v5 : IVec S32 1 := cmpi .sge main_arg2 main_v4
  let main_c_1 : IVec S_ 32 := constantI S_ 32 16#32
  let main_v6 : IVec S32 32 := broadcastInDim S32 ![] bcast_S_S32 main_c_1
  let main_v7 : IVec S32 1 := cmpi .slt main_arg2 main_v6
  let main_v8 : IVec S32 1 := andi main_v5 main_v7
  let main_c_2 : IVec S_ 1 := constantI S_ 1 1#1
  let main_v9 : IVec S_ 1 := (fun x v => Host.reduce IntOp.andi x v reducesTo_S32_S_d0 h_S_) main_v8 main_c_2
  let main_v10 : IVec S_ 1 := andi main_v3 main_v9
  let main_c_3 : IVec S_ 32 := constantI S_ 32 0#32
  let main_v11 : IVec S32x2048 32 := broadcastInDim S32x2048 ![] bcast_S_S32x2048 main_c_3
  let main_v12 : IVec S32x2048 1 := cmpi .sge main_arg1 main_v11
  let main_c_4 : IVec S_ 32 := constantI S_ 32 50#32
  let main_v13 : IVec S32x2048 32 := broadcastInDim S32x2048 ![] bcast_S_S32x2048 main_c_4
  let main_v14 : IVec S32x2048 1 := cmpi .slt main_arg1 main_v13
  let main_v15 : IVec S32x2048 1 := andi main_v12 main_v14
  let main_c_5 : IVec S_ 1 := constantI S_ 1 1#1
  fn_part1 (F := F) main_v10 main_v15 main_c_5
-- ==== Kernel.lean ====
abbrev S16x32x50x2048 : Shape := ⟨4, ![16, 32, 50, 2048]⟩
abbrev S32x2048 : Shape := ⟨2, ![32, 2048]⟩
abbrev S32 : Shape := ⟨1, ![32]⟩
abbrev S32x1x2048 : Shape := ⟨3, ![32, 1, 2048]⟩
abbrev S1x1x50x2048 : Shape := ⟨4, ![1, 1, 50, 2048]⟩
abbrev S1 : Shape := ⟨1, ![1]⟩
abbrev S1x1x2048 : Shape := ⟨3, ![1, 1, 2048]⟩
abbrev S50x2048 : Shape := ⟨2, ![50, 2048]⟩
abbrev S2048 : Shape := ⟨1, ![2048]⟩
abbrev S1x2048 : Shape := ⟨2, ![1, 2048]⟩
abbrev S_ : Shape := ⟨0, ![]⟩

abbrev nBuf : Space → Nat
  | .hbm => 8
  | .vmem => 6
  | .smem => 1
  | _ => 0

abbrev bufTy : (tb : Table) → Fin (tcTables nBuf tb) → BufTy
  | .hbm, ⟨0, _⟩ => ⟨S16x32x50x2048, .f32⟩
  | .hbm, ⟨1, _⟩ => ⟨S32x2048, .i32⟩
  | .hbm, ⟨2, _⟩ => ⟨S32x1x2048, .i32⟩
  | .hbm, ⟨3, _⟩ => ⟨S32x1x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x1x50x2048, .f32⟩
  | .local _ .vmem, ⟨1, _⟩ => ⟨S1x1x50x2048, .f32⟩
  | .local _ .vmem, ⟨2, _⟩ => ⟨S1x1x2048, .i32⟩
  | .local _ .vmem, ⟨3, _⟩ => ⟨S1x1x2048, .i32⟩
  | .local _ .vmem, ⟨4, _⟩ => ⟨S1x1x2048, .f32⟩
  | .local _ .vmem, ⟨5, _⟩ => ⟨S1x1x2048, .f32⟩
  | .local _ .smem, ⟨0, _⟩ => ⟨S32, .i32⟩
  | _, _ => ⟨S16x32x50x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S32.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x50x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S32x2048_S32x1x2048_0_2 : S32x2048.BroadcastsInDim S32x1x2048 (![0, 2] : Fin 2 → Fin S32x1x2048.rank)
  numel1_S1 : S1.numel = 1
  inb_S1x1x50x2048_S1x1x50x2048_0_0_0_0 : ∀ a, (![0, 0, 0, 0] : Fin 4 → Nat) a + S1x1x50x2048.size a ≤ S1x1x50x2048.size a
  h_S1x1x50x2048 : 0 < S1x1x50x2048.numel
  shapeCasts_S1x1x50x2048_S50x2048 : S1x1x50x2048.ShapeCasts S50x2048
  reduces_S50x2048_S2048 : S50x2048.Reduces [0] S2048
  shapeCasts_S2048_S1x2048 : S2048.ShapeCasts S1x2048
  broadcasts_S1x2048_S50x2048 : S1x2048.Broadcasts S50x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  iota_S50x2048_d0_w32 : S50x2048.Iotas .tc 32 [0]
  shapeCasts_S2048_S1x1x2048 : S2048.ShapeCasts S1x1x2048
  reducesTo_S32x1x2048_S_d0_1_2 : S32x1x2048.ReducesTo [0, 1, 2] S_
  h_S_ : 0 < S_.numel
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S32x1x2048.size a
  hwx0_1 : ∀ i : grid0.Coords, EltTy.bits .i32 = 32 ∨ (Rect.block (s := S32x1x2048) S1x1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S32x1x2048.size a
  hwx0_2 : ∀ i : grid0.Coords, EltTy.bits .f32 = 32 ∨ (Rect.block (s := S32x1x2048) S1x1x2048.size (cc0_transform_2 i) (hinb0_2 i)).WholeWords (EltTy.packing .f32)

variable [Facts₀]

abbrev spec0_0 : Pipeline.WinSpec sig grid0.rank :=
  Pipeline.WinSpec.ofSpec (Memref.whole main_arg0) S1x1x50x2048.size reads0_0 false false 2 stage0_0 sem0_0 nbuf0_0 hstage0_0

abbrev spec0_1 : Pipeline.WinSpec sig grid0.rank :=
  Pipeline.WinSpec.ofSpec (Memref.whole main_v0) S1x1x2048.size reads0_1 false false 2 stage0_1 sem0_1 nbuf0_1 hstage0_1

abbrev spec0_2 : Pipeline.WinSpec sig grid0.rank :=
  Pipeline.WinSpec.ofSpec (Memref.whole main_v1) S1x1x2048.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x50x2048.size a ≤ S16x32x50x2048.size a), EltTy.bits .f32 = 32 ∨ (Rect.block (s := S16x32x50x2048) S1x1x50x2048.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S16x32x50x2048 : Shape := ⟨4, ![16, 32, 50, 2048]⟩
abbrev S32x2048 : Shape := ⟨2, ![32, 2048]⟩
abbrev S32 : Shape := ⟨1, ![32]⟩
abbrev S_ : Shape := ⟨0, ![]⟩
abbrev S32x1 : Shape := ⟨2, ![32, 1]⟩
abbrev S32x2 : Shape := ⟨2, ![32, 2]⟩
abbrev S32x50x2048 : Shape := ⟨3, ![32, 50, 2048]⟩
abbrev S32x1x2048 : Shape := ⟨3, ![32, 1, 2048]⟩
abbrev S32x1x2048x1 : Shape := ⟨4, ![32, 1, 2048, 1]⟩
abbrev S1 : Shape := ⟨1, ![1]⟩
abbrev S1x1x1x1 : Shape := ⟨4, ![1, 1, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S16x32x50x2048, .f32⟩
  | .hbm, ⟨1, _⟩ => ⟨S32x2048, .i32⟩
  | .hbm, ⟨2, _⟩ => ⟨S32, .i32⟩
  | .hbm, ⟨3, _⟩ => ⟨S32, .i32⟩
  | .hbm, ⟨4, _⟩ => ⟨S_, .i32⟩
  | .hbm, ⟨5, _⟩ => ⟨S32, .i32⟩
  | .hbm, ⟨6, _⟩ => ⟨S32, .i1⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i1⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S32, .i32⟩
  | .hbm, ⟨18, _⟩ => ⟨S32x1, .i32⟩
  | .hbm, ⟨19, _⟩ => ⟨S32x1, .i32⟩
  | .hbm, ⟨20, _⟩ => ⟨S32x2, .i32⟩
  | .hbm, ⟨21, _⟩ => ⟨S32x50x2048, .f32⟩
  | .hbm, ⟨22, _⟩ => ⟨S_, .f32⟩
  | .hbm, ⟨23, _⟩ => ⟨S32x2048, .f32⟩
  | .hbm, ⟨24, _⟩ => ⟨S_, .f32⟩
  | .hbm, ⟨25, _⟩ => ⟨S32x2048, .f32⟩
  | .hbm, ⟨26, _⟩ => ⟨S32x2048, .f32⟩
  | .hbm, ⟨27, _⟩ => ⟨S32x1x2048, .f32⟩
  | .hbm, ⟨28, _⟩ => ⟨S32x50x2048, .f32⟩
  | .hbm, ⟨29, _⟩ => ⟨S32x50x2048, .f32⟩
  | .hbm, ⟨30, _⟩ => ⟨S32x50x2048, .f32⟩
  | .hbm, ⟨31, _⟩ => ⟨S_, .f32⟩
  | .hbm, ⟨32, _⟩ => ⟨S32x2048, .f32⟩
  | .hbm, ⟨33, _⟩ => ⟨S32x1x2048, .f32⟩
  | .hbm, ⟨34, _⟩ => ⟨S32x1x2048, .f32⟩
  | .hbm, ⟨35, _⟩ => ⟨S32x50x2048, .f32⟩
  | .hbm, ⟨36, _⟩ => ⟨S32x50x2048, .f32⟩
  | .hbm, ⟨37, _⟩ => ⟨S32x1x2048, .i32⟩
  | .hbm, ⟨38, _⟩ => ⟨S_, .i32⟩
  | .hbm, ⟨39, _⟩ => ⟨S32x1x2048, .i32⟩
  | .hbm, ⟨40, _⟩ => ⟨S32x1x2048, .i1⟩
  | .hbm, ⟨41, _⟩ => ⟨S_, .i32⟩
  | .hbm, ⟨42, _⟩ => ⟨S32x1x2048, .i32⟩
  | .hbm, ⟨43, _⟩ => ⟨S32x1x2048, .i32⟩
  | .hbm, ⟨44, _⟩ => ⟨S32x1x2048, .i32⟩
  | .hbm, ⟨45, _⟩ => ⟨S32x1x2048x1, .i32⟩
  | .hbm, ⟨46, _⟩ => ⟨S1, .i32⟩
  | .hbm, ⟨47, _⟩ => ⟨S_, .i32⟩
  | .hbm, ⟨48, _⟩ => ⟨S32x1x2048x1, .i32⟩
  | .hbm, ⟨49, _⟩ => ⟨S32x1x2048x1, .i1⟩
  | .hbm, ⟨50, _⟩ => ⟨S1x1x1x1, .i32⟩
  | .hbm, ⟨51, _⟩ => ⟨S32x1x2048x1, .i32⟩
  | .hbm, ⟨52, _⟩ => ⟨S32x1x2048x1, .i1⟩
  | .hbm, ⟨53, _⟩ => ⟨S32x1x2048x1, .i1⟩
  | .hbm, ⟨54, _⟩ => ⟨S_, .i1⟩
  | .hbm, ⟨55, _⟩ => ⟨S32x1x2048, .i1⟩
  | .hbm, ⟨56, _⟩ => ⟨S32x1x2048, .f32⟩
  | .hbm, ⟨57, _⟩ => ⟨S_, .f32⟩
  | .hbm, ⟨58, _⟩ => ⟨S32x1x2048, .f32⟩
  | .hbm, ⟨59, _⟩ => ⟨S32x1x2048, .f32⟩
  | .hbm, ⟨60, _⟩ => ⟨S32x2048, .f32⟩
  | .hbm, ⟨61, _⟩ => ⟨S32x2048, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S16x32x50x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_call0_cst_0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_cst_1 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_v15 : Ref sig .tc := ⟨.hbm, 36, rfl⟩
abbrev main_v16 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_cst : Ref sig .tc := ⟨.hbm, 57, rfl⟩
abbrev main_call1_v14 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_cst : Ref sig .tc := ⟨.hbm, 62, rfl⟩
abbrev main_v20 : Ref sig .tc := ⟨.hbm, 63, rfl⟩
abbrev main_cst_3 : Ref sig .tc := ⟨.hbm, 64, rfl⟩
abbrev main_v21 : Ref sig .tc := ⟨.hbm, 65, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  reducesTo_S32x50x2048_S32x2048_d1 : S32x50x2048.ReducesTo [1] S32x2048
  h_S_ : 0 < S_.numel
  bcast_S_S32x2048 : S_.BroadcastsInDim S32x2048 (![] : Fin 0 → Fin S32x2048.rank)
  bcast_S32x2048_S32x1x2048_0_2 : S32x2048.BroadcastsInDim S32x1x2048 (![0, 2] : Fin 2 → Fin S32x1x2048.rank)
  bcast_S32x1x2048_S32x50x2048_0_1_2 : S32x1x2048.BroadcastsInDim S32x50x2048 (![0, 1, 2] : Fin 3 → Fin S32x50x2048.rank)
  bcast_S_S32x1x2048 : S_.BroadcastsInDim S32x1x2048 (![] : Fin 0 → Fin S32x1x2048.rank)
  shapeCasts_S32x1x2048_S32x1x2048x1 : S32x1x2048.ShapeCasts S32x1x2048x1
  bcast_S_S32x1x2048x1 : S_.BroadcastsInDim S32x1x2048x1 (![] : Fin 0 → Fin S32x1x2048x1.rank)
  bcast_S1_S1x1x1x1_3 : S1.BroadcastsInDim S1x1x1x1 (![3] : Fin 1 → Fin S1x1x1x1.rank)
  bcast_S1x1x1x1_S32x1x2048x1_0_1_2_3 : S1x1x1x1.BroadcastsInDim S32x1x2048x1 (![0, 1, 2, 3] : Fin 4 → Fin S32x1x2048x1.rank)
  reducesTo_S32x1x2048x1_S32x1x2048_d3 : S32x1x2048x1.ReducesTo [3] S32x1x2048
  shapeCasts_S32x1x2048_S32x2048 : S32x1x2048.ShapeCasts S32x2048
  reducesTo_S32x2048_S_d0_1 : S32x2048.ReducesTo [0, 1] S_
  gather_S16x32x50x2048_S32x2_S32x50x2048_12_01_n_n_01_1_11502048_wf : GatherDims.WF S16x32x50x2048 S32x2 S32x50x2048 [1, 2] [0, 1] [] [0, 1] [] 1 ![1, 1, 50, 2048]
  gather_S32x50x2048_S32x1x2048x1_S32x1x2048_n_1_02_02_1_3_111_wf : GatherDims.WF S32x50x2048 S32x1x2048x1 S32x1x2048 [] [1] [0, 2] [1] [0, 2] 3 ![1, 1, 1]

variable [Facts₀]

def gather_S16x32x50x2048_S32x2_S32x50x2048_12_01_n_n_01_1_11502048 : GatherDims S16x32x50x2048 S32x2 S32x50x2048 where
  offsetDims := [1, 2]
  collapsedSliceDims := [0, 1]
  operandBatchingDims := []
  startIndicesBatchingDims := []
  startIndexMap := [0, 1]
  indexVectorDim := 1
  sliceSizes := ![1, 1, 50, 2048]
  wf := gather_S16x32x50x2048_S32x2_S32x50x2048_12_01_n_n_01_1_11502048_wf
def gather_S32x50x2048_S32x1x2048x1_S32x1x2048_n_1_02_02_1_3_111 : GatherDims S32x50x2048 S32x1x2048x1 S32x1x2048 where
  offsetDims := []
  collapsedSliceDims := [1]
  operandBatchingDims := [0, 2]
  startIndicesBatchingDims := [0, 2]
  startIndexMap := [1]
  indexVectorDim := 3
  sliceSizes := ![1, 1, 1]
  wf := gather_S32x50x2048_S32x1x2048x1_S32x1x2048_n_1_02_02_1_3_111_wf

class Facts : Prop extends Facts₀ where

variable [Facts]
-- ==== Proof.PreRanges.lean ====
/-
  What the precondition says of the two integer inputs: every shape label is one of the sixteen heads and every
  point label one of the fifty classes. The printed predicate is the conjunction of three `jnp.all`s; each one that
  holds has a 1 at every element, and an element that is 1 says its word is at least 0 and below the bound, signed,
  so its value as a natural number is below the bound.
-/
import proofs.«425126_j28492813041772_1_alg».proof.Pre_finite_inputs
import proofs.«425126_j28492813041772_1_alg».proof.Proof.Gen.Pre_finite_inputs
import Idealize.ShloMosaic.Lib.ReduceAll

noncomputable section

namespace Cert.PreRanges

open Idealize.ShloMosaic Cert.Pre_finite_inputs

/-- The scalar shape has one index: two of them agree at every axis because there is no axis. -/
instance subsingleton_scalar_idx : Subsingleton S_.Idx := ⟨fun _ _ => funext fun d => d.elim0⟩

/-- A word that is at least 0 and below the word `b` of value `n`, both read signed, has a value below `n`: a word
    that is not negative reads the same signed and unsigned. -/
theorem toNat_lt (w b : BitVec 32) (n : Nat) (hb : b.toInt = n) (h0 : IntOp.cmpi .sge w 0#32 = 1#1)
    (h1 : IntOp.cmpi .slt w b = 1#1) : w.toNat < n := by
  rw [IntOp.cmpi_sge] at h0
  rw [IntOp.cmpi_slt, hb] at h1
  have z : (0#32 : BitVec 32).toInt = 0 := by decide
  rw [z] at h0
  have hw := w.isLt
  rw [BitVec.toInt_eq_toNat_cond] at h0 h1
  split at h0 <;> omega

/-- Under the precondition every shape label is below 16 and every point label below 50. -/
theorem ranges {F : FTy → Type} [FloatOps F] (a0 : FVec F S16x32x50x2048 .f32) (a1 : IVec S32x2048 32) (a2 : IVec S32 32)
    (h : Cert.Pre_finite_inputs.fn (F := F) a0 a1 a2 = fun _ => 1#1) :
    (∀ i : S32.Idx, (a2 i).toNat < 16) ∧ (∀ i : S32x2048.Idx, (a1 i).toNat < 50) := by
  have e := congrFun h (fun d => d.elim0)
  unfold fn fn_part1 at e
  dsimp only at e
  obtain ⟨e12, e3⟩ := IntOp.andi_eq_one.1 e
  obtain ⟨_, e2⟩ := IntOp.andi_eq_one.1 e12
  refine ⟨fun i => ?_, fun i => ?_⟩
  · have p := Host.reduce_andi_all _ _ _ _ _ e2 i
    obtain ⟨p0, p1⟩ := IntOp.andi_eq_one.1 p
    exact toNat_lt (a2 i) 16#32 16 (by decide) p0 p1
  · have p := Host.reduce_andi_all _ _ _ _ _ e3 i
    obtain ⟨p0, p1⟩ := IntOp.andi_eq_one.1 p
    exact toNat_lt (a1 i) 50#32 50 (by decide) p0 p1

end Cert.PreRanges

end
-- ==== Proof.KernelOk.lean ====
/-
  The pipeline's side condition on the prefetched table of shape labels, from the precondition. Window 0's block at
  grid point b is the block (label b, b, 0, 0) of the [16, 32, 50, 2048] logits in units of [1, 1, 50, 2048]: it lies
  inside the array exactly when label b is below 16, which the precondition gives; f32 is word-wide, so the transfer
  ends are word-exact.
-/
import proofs.«425126_j28492813041772_1_alg».proof.Defs
import proofs.«425126_j28492813041772_1_alg».proof.Proof.Gen.Kernel.Frame.Runs
import proofs.«425126_j28492813041772_1_alg».proof.Proof.PreRanges

noncomputable section

namespace Cert.Kernel.OkOfPre

open Idealize.ShloMosaic Idealize.SL.Sem Cert.Kernel Cert.Kernel.Gen

variable {F : FTy → Type} [FloatOps F]

/-- Every shape label below 16 puts every block of window 0 inside the logits array. -/
theorem ok_of_heads (m : (ℓ : Loc nD τ sig) → Buf (Elt F) ℓ)
    (h : ∀ i : S32.Idx, (m (((0 : Dev nD).tc : Thread nD τ).loc main_arg2) i).toNat < 16) : Ok m := by
  intro i
  -- every word of the table, as the region finds it, is a word of the launch memory: below 16
  have hl : ∀ x, (tbl m 0 x).toNat < 16 := fun x => by
    have e : tbl m 0 = m (((0 : Dev nD).tc : Thread nD τ).loc main_arg2) := V_main_arg2 m 0
    rw [e]; exact h x
  -- the block's index is (label, b, 0, 0), the label a word of the table
  obtain ⟨w, hw, e⟩ : ∃ w : BitVec 32, w.toNat < 16 ∧
      cc0_transform_0 Facts₀.k0_off1_inb Facts₀.numel1_S1 (tbl m) i = ![w.toNat, (BitVec.ofNat 32 (i 0).val).toNat, 0, 0] :=
    ⟨_, hl _, rfl⟩
  refine ⟨fun a => ?_, Or.inl rfl⟩
  rw [e]
  have hi : (i 0).val < 32 := (i 0).isLt
  have hb : (BitVec.ofNat 32 (i 0).val).toNat = (i 0).val := by
    rw [BitVec.toNat_ofNat]; exact Nat.mod_eq_of_lt (by omega)
  fin_cases a
  · show (w.toNat + 1) * 1 ≤ 16
    omega
  · show ((BitVec.ofNat 32 (i 0).val).toNat + 1) * 1 ≤ 32
    rw [hb]; omega
  · show (0 + 1) * 50 ≤ 50
    omega
  · show (0 + 1) * 2048 ≤ 2048
    omega

/-- The precondition gives the side condition. -/
theorem ok_of_pre (m : (ℓ : Loc nD τ sig) → Buf (Elt Bits) ℓ) (h : Cert.Pre_Kernel m) : Ok m :=
  ok_of_heads m (fun i => (Cert.PreRanges.ranges _ _ _ (h 0)).1 i)

end Cert.Kernel.OkOfPre

end
-- ==== Proof.KernelIdealOk.lean ====
/-
  The pipeline's side condition on the prefetched table of shape labels, from the precondition. Window 0's block at
  grid point b is the block (label b, b, 0, 0) of the [16, 32, 50, 2048] logits in units of [1, 1, 50, 2048]: it lies
  inside the array exactly when label b is below 16, which the precondition gives; f32 is word-wide, so the transfer
  ends are word-exact.
-/
import proofs.«425126_j28492813041772_1_alg».proof.Defs
import proofs.«425126_j28492813041772_1_alg».proof.Proof.Gen.KernelIdeal.Frame.Runs
import proofs.«425126_j28492813041772_1_alg».proof.Proof.PreRanges

noncomputable section

namespace Cert.KernelIdeal.OkOfPre

open Idealize.ShloMosaic Idealize.SL.Sem Cert.KernelIdeal Cert.KernelIdeal.Gen

variable {F : FTy → Type} [FloatOps F]

/-- Every shape label below 16 puts every block of window 0 inside the logits array. -/
theorem ok_of_heads (m : (ℓ : Loc nD τ sig) → Buf (Elt F) ℓ)
    (h : ∀ i : S32.Idx, (m (((0 : Dev nD).tc : Thread nD τ).loc main_arg2) i).toNat < 16) : Ok m := by
  intro i
  -- every word of the table, as the region finds it, is a word of the launch memory: below 16
  have hl : ∀ x, (tbl m 0 x).toNat < 16 := fun x => by
    have e : tbl m 0 = m (((0 : Dev nD).tc : Thread nD τ).loc main_arg2) := V_main_arg2 m 0
    rw [e]; exact h x
  -- the block's index is (label, b, 0, 0), the label a word of the table
  obtain ⟨w, hw, e⟩ : ∃ w : BitVec 32, w.toNat < 16 ∧
      cc0_transform_0 Facts₀.k0_off1_inb Facts₀.numel1_S1 (tbl m) i = ![w.toNat, (BitVec.ofNat 32 (i 0).val).toNat, 0, 0] :=
    ⟨_, hl _, rfl⟩
  refine ⟨fun a => ?_, Or.inl rfl⟩
  rw [e]
  have hi : (i 0).val < 32 := (i 0).isLt
  have hb : (BitVec.ofNat 32 (i 0).val).toNat = (i 0).val := by
    rw [BitVec.toNat_ofNat]; exact Nat.mod_eq_of_lt (by omega)
  fin_cases a
  · show (w.toNat + 1) * 1 ≤ 16
    omega
  · show ((BitVec.ofNat 32 (i 0).val).toNat + 1) * 1 ≤ 32
    rw [hb]; omega
  · show (0 + 1) * 50 ≤ 50
    omega
  · show (0 + 1) * 2048 ≤ 2048
    omega

/-- The precondition gives the side condition. -/
theorem ok_of_pre (m : (ℓ : Loc nD τ sig) → Buf (Elt Ideal) ℓ) (h : Cert.Pre_KernelIdeal m) : Ok m :=
  ok_of_heads m (fun i => (Cert.PreRanges.ranges _ _ _ (h 0)).1 i)

end Cert.KernelIdeal.OkOfPre

end
-- ==== Proof.CrossEntropy.lean ====
/-
  The mathematics both programs compute, over the extended reals, with no program in sight.

  A column of fifty logits `x` has a maximum `colMax x` (taken from −∞), its shifted entries `x p − colMax x`, the
  logarithm of the sum of their exponentials, and the log-probabilities `logProb x p`. The loss of one point with
  label `l` is `nll x l = −logProb x l`; the loss of the whole batch at (b, n) reads the column of the head the
  sample's shape label selects.

  Two facts join the two programs. The kernel finds the label's log-probability by masking the column with the
  one-hot row of the label and summing it: a sum with one non-zero term is that term (`masked_sum`), and `0 − y = −y`
  on the extended reals, so no finiteness is needed. And the two programs total the same losses over index types of
  different rank, [32, 1, 2048] against [32, 2048]: the totals agree by re-indexing (`sum_rank3_eq_rank2`).
-/
import Idealize.ShloMosaic.PureOps.Ideal
import Idealize.ShloMosaic.PureOps.Ideal.Laws
import Idealize.ShloMosaic.Lib.ValueIdx

noncomputable section

namespace Cert.CrossEntropy

open Idealize.ShloMosaic Idealize.ShloMosaic.ValueIdx

/-- The maximum of a column of fifty extended reals, taken from −∞ (the f32 pattern of −∞, as both programs print it). -/
def colMax (x : Fin 50 → EReal) : EReal :=
  (Finset.univ : Finset (Fin 50)).fold max (Ideal.ofBits .f32 0xFF800000#32) x

/-- An entry less the column's maximum. -/
def shifted (x : Fin 50 → EReal) (p : Fin 50) : EReal := x p - colMax x

/-- The logarithm of the sum of the exponentials of the shifted column. -/
def logSumExp (x : Fin 50 → EReal) : EReal := Ideal.log (∑ k : Fin 50, Ideal.exp (shifted x k))

/-- The log-probability of class `p`. -/
def logProb (x : Fin 50 → EReal) (p : Fin 50) : EReal := shifted x p - logSumExp x

/-- The negative log-likelihood of the label `l`. -/
def nll (x : Fin 50 → EReal) (l : Fin 50) : EReal := -(logProb x l)

/-- A label word as a class: its value (below 50 for every word the precondition admits). -/
def cls (w : BitVec 32) : Fin 50 := ⟨w.toNat % 50, Nat.mod_lt _ (by decide)⟩

/-- A shape-label word as a head: its value (below 16 for every word the precondition admits). -/
def head (w : BitVec 32) : Fin 16 := ⟨w.toNat % 16, Nat.mod_lt _ (by decide)⟩

theorem cls_val {w : BitVec 32} (h : w.toNat < 50) : (cls w).val = w.toNat := Nat.mod_eq_of_lt h
theorem head_val {w : BitVec 32} (h : w.toNat < 16) : (head w).val = w.toNat := Nat.mod_eq_of_lt h

/-- The loss of sample `b` at point `n`: the column of the head its shape label selects, against its point label. -/
def loss (x0 : (⟨4, ![16, 32, 50, 2048]⟩ : Shape).Idx → EReal) (x1 : (⟨2, ![32, 2048]⟩ : Shape).Idx → BitVec 32)
    (x2 : (⟨1, ![32]⟩ : Shape).Idx → BitVec 32) (b : Fin 32) (n : Fin 2048) : EReal :=
  nll (fun p => x0 (ix4 (head (x2 (ix1 b))) b p n)) (cls (x1 (ix2 b n)))

/-- A column masked by the one-hot row of `l` sums to its entry at `l`. -/
theorem masked_sum (y : Fin 50 → EReal) (l : Fin 50) : (∑ p : Fin 50, if p = l then y p else 0) = y l := by
  rw [Finset.sum_ite_eq' Finset.univ l y, if_pos (Finset.mem_univ l)]

/-- On the extended reals `0 − y = −y`. -/
theorem zero_sub_ereal (y : EReal) : (0 : EReal) - y = -y := by
  rw [sub_eq_add_neg, zero_add]

/-- The index (b, 0, n) of [32, 1, 2048] and the index (b, n) of [32, 2048] correspond one to one. -/
def dropUnit : (⟨3, ![32, 1, 2048]⟩ : Shape).Idx ≃ (⟨2, ![32, 2048]⟩ : Shape).Idx where
  toFun i := ix2 (n0 := 32) (n1 := 2048) (i 0) (i 2)
  invFun j := ix3 (n0 := 32) (n1 := 1) (n2 := 2048) (j 0) (0 : Fin 1) (j 1)
  left_inv i := by
    funext a
    match a with
    | ⟨0, _⟩ => rfl
    | ⟨1, _⟩ => exact Fin.ext (by have h : (i (1 : Fin 3)).val < 1 := (i (1 : Fin 3)).isLt; show 0 = (i (1 : Fin 3)).val; omega)
    | ⟨2, _⟩ => rfl
  right_inv j := by
    funext a
    match a with
    | ⟨0, _⟩ => rfl
    | ⟨1, _⟩ => rfl

/-- The total over [32, 1, 2048] of a function of the outer coordinates is the total over [32, 2048]. -/
theorem sum_rank3_eq_rank2 (f : Fin 32 → Fin 2048 → EReal) :
    (∑ i : (⟨3, ![32, 1, 2048]⟩ : Shape).Idx, f (i 0) (i 2)) = ∑ j : (⟨2, ![32, 2048]⟩ : Shape).Idx, f (j 0) (j 1) :=
  Fintype.sum_equiv dropUnit _ _ (fun _ => rfl)

end Cert.CrossEntropy

end
-- ==== Proof.KernelValue.lean ====
/-
  What the idealized kernel leaves in its result array, and its run with the result named.

  At grid point `b` the body reads the block (label b, b, ·, ·) of the logits and row `b` of the point labels, and
  stores, lane by lane, the loss of that lane's column against that lane's label; the point's write-back puts it in
  row `b` of the [32, 1, 2048] result. The 32 rows tile the result, so after the run the result array is the loss
  at every (b, 0, n). The host lines after the call total it and divide by 65536.
-/
import proofs.«425126_j28492813041772_1_alg».proof.Defs
import proofs.«425126_j28492813041772_1_alg».proof.Proof.Gen.KernelIdeal.Frame
import proofs.«425126_j28492813041772_1_alg».proof.Proof.CrossEntropy
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The body's one store covers the output block: what the run leaves there is the payload of the two input blocks. -/
theorem out_eq (c : Dev nD) (i : grid0.Coords) (arg2 : Memref sig .tc .vmem S1x1x50x2048 .f32) (harg2 : arg2.IsWhole)
    (arg3 : Memref sig .tc .vmem S1x1x2048 .i32) (harg3 : arg3.IsWhole) (arg4 : Memref sig .tc .vmem S1x1x2048 .f32) (harg4 : arg4.IsWhole)
    (x0 : Vec F S1x1x50x2048 .f32) (x1 : Vec F S1x1x2048 .i32) (xt0 : TbBuf0 (F := F) c tbM0_0) :
    out0_A_2 c i arg2 harg2 arg3 harg3 arg4 harg4 x0 x1 xt0 = k0_pay1 x0 x1 := by
  unfold out0_A_2
  rw [View.read_writes_eq_canon _ _ _ (cover0_A_2 c i arg2 harg2 arg3 harg3 arg4 harg4 x0 x1 xt0)]
  unfold kernelRun0_A
  dsimp only
  try sl_unfold_words
  rw [View.canon_unit_zero hz3]
  simp only [View.readAt_eq_ld, harg2.read_unread, harg3.read_unread, View.ld_unit_zero (S := S1x1x50x2048) hz4,
    View.ld_unit_zero (S := S1x1x2048) hz3]

/-! ## The grid point, the label it reads, and where its blocks lie -/

/-- The grid has the one axis of 32 samples. -/
theorem N_eq (hO : Ok m) : (cfgM m hO).N = 32 := N_0

/-- A grid point as the sample it is. -/
def pt (hO : Ok m) (t : Fin (cfgM m hO).N) : Fin 32 := ⟨t.val, Nat.lt_of_lt_of_eq t.isLt (N_eq m hO)⟩

/-- The point's one coordinate is the point, and as an i32 word and an index it is still the point. -/
theorem coords_val : ∀ t : Fin grid0.N, ((grid0.coords t) 0).val = t.val
    ∧ (BitVec.ofNat 32 ((grid0.coords t) 0).val).toNat = t.val
    ∧ (Scalar.indexCast (BitVec.ofNat 32 ((grid0.coords t) 0).val)).toNat = t.val := by decide

/-- The shape label of sample `b`, as the region finds the table. -/
def label (b : Fin 32) : BitVec 32 := (tbl m 0 : S32.Idx → BitVec 32) (ix1 b)

/-- Window 0's block index at a point: (the point's label, the point, 0, 0). -/
theorem index0 (hO : Ok m) (t : Fin (cfgM m hO).N) :
    ((cfgM m hO).win 0).index t = ![(label m (pt m hO t)).toNat, t.val, 0, 0] := by
  have e : ((cfgM m hO).win 0).index t
      = ![((tbl m 0 : S32.Idx → BitVec 32) ((Rect.unit (s := S32) ![(Scalar.indexCast (BitVec.ofNat 32 ((grid0.coords t) 0).val)).toNat] S1.size (Facts₀.k0_off1_inb (grid0.coords t))).emb (Shape.Idx.first (Facts₀.numel1_S1.symm ▸ Nat.one_pos)))).toNat,
          (BitVec.ofNat 32 ((grid0.coords t) 0).val).toNat, 0, 0] := rfl
  rw [e]
  obtain ⟨_, hword, hidx⟩ := coords_val t
  have hw : (Rect.unit (s := S32) ![(Scalar.indexCast (BitVec.ofNat 32 ((grid0.coords t) 0).val)).toNat] S1.size (Facts₀.k0_off1_inb (grid0.coords t))).emb (Shape.Idx.first (Facts₀.numel1_S1.symm ▸ Nat.one_pos))
      = ix1 (pt m hO t) := by
    funext a
    apply Fin.ext
    obtain rfl : a = 0 := Subsingleton.elim _ _
    have h1 : (Shape.Idx.first (Facts₀.numel1_S1.symm ▸ Nat.one_pos : 0 < S1.numel) (0 : Fin 1)).val = 0 := by
      have := (Shape.Idx.first (Facts₀.numel1_S1.symm ▸ Nat.one_pos : 0 < S1.numel) (0 : Fin 1)).isLt
      have e1 : S1.size (0 : Fin 1) = 1 := by decide
      omega
    show (Scalar.indexCast (BitVec.ofNat 32 ((grid0.coords t) 0).val)).toNat + 1 * (Shape.Idx.first (Facts₀.numel1_S1.symm ▸ Nat.one_pos : 0 < S1.numel) (0 : Fin 1)).val = t.val
    rw [h1, hidx]; omega
  rw [hw, hword]
  rfl

/-- Under the side condition the point's label is one of the sixteen heads. -/
theorem label_lt (hO : Ok m) (t : Fin (cfgM m hO).N) : (label m (pt m hO t)).toNat < 16 := by
  have h : (((cfgM m hO).win 0).index t (0 : Fin 4) + 1) * 1 ≤ 16 := (hO (grid0.coords t)).elim fun h _ => h (0 : Fin 4)
  have e : ((cfgM m hO).win 0).index t (0 : Fin 4) = (label m (pt m hO t)).toNat := congrFun (index0 m hO t) (0 : Fin 4)
  omega

/-- The logits block of a point, read at (0, 0, p, n): the argument at (the head of the point's label, the point, p, n). -/
theorem logits_block (hO : Ok m) (c : Dev nD) (t : Fin (cfgM m hO).N) (p : Fin 50) (n : Fin 2048) :
    (iblk m hO c 0 t : Vec F S1x1x50x2048 .f32) (ix4 (0 : Fin 1) (0 : Fin 1) p n)
      = (m ((c : Thread nD τ).loc main_arg0) : S16x32x50x2048.Idx → Elt F .f32)
          (ix4 (Cert.CrossEntropy.head (label m (pt m hO t))) (pt m hO t) p n) := by
  have hi := index0 m hO t
  have hh := Cert.CrossEntropy.head_val (label_lt m hO t)
  show (V m c main_arg0 : S16x32x50x2048.Idx → Elt F .f32) ((((cfgM m hO).win 0).blk t).view.emb (ix4 (0 : Fin 1) (0 : Fin 1) p n)) = _
  rw [V_main_arg0]
  congr 1
  funext a
  apply Fin.ext
  match a with
  | ⟨0, _⟩ => show ((cfgM m hO).win 0).index t (0 : Fin 4) * 1 + 1 * 0 = (Cert.CrossEntropy.head (label m (pt m hO t))).val
              rw [congrFun hi (0 : Fin 4), hh]; show (label m (pt m hO t)).toNat * 1 + 1 * 0 = _; omega
  | ⟨1, _⟩ => show ((cfgM m hO).win 0).index t (1 : Fin 4) * 1 + 1 * 0 = t.val
              rw [congrFun hi (1 : Fin 4)]; show t.val * 1 + 1 * 0 = _; omega
  | ⟨2, _⟩ => show ((cfgM m hO).win 0).index t (2 : Fin 4) * 50 + 1 * p.val = p.val
              rw [congrFun hi (2 : Fin 4)]; show 0 * 50 + 1 * p.val = _; omega
  | ⟨3, _⟩ => show ((cfgM m hO).win 0).index t (3 : Fin 4) * 2048 + 1 * n.val = n.val
              rw [congrFun hi (3 : Fin 4)]; show 0 * 2048 + 1 * n.val = _; omega

/-- The labels array the region finds: the point labels given a unit class axis. -/
theorem V_labels (c : Dev nD) :
    (V m c main_v0 : S32x1x2048.Idx → BitVec 32)
      = broadcastInDim S32x1x2048 ![0, 2] Facts₀.bcast_S32x2048_S32x1x2048_0_2 (m ((c : Thread nD τ).loc main_arg1) : S32x2048.Idx → BitVec 32) := by
  show StableHlo.after hostOps0 (fun b => m (c, b)) (Proc.devRef .tc main_v0) = _
  after_results

/-- Window 1's block index at a point: (the point, 0, 0), at any contents of the table. -/
theorem index1 (a : (pcfg0 (F := F)).Adm) : ∀ t : Fin (cfg0 a).N, ((cfg0 a).win 1).index t = ![t.val, 0, 0] :=
  (by decide : ∀ t : Fin grid0.N, cc0_transform_1 (grid0.coords t) = ![t.val, 0, 0])

/-- The labels block of a point, read at (0, 0, n): the point's label at n. -/
theorem labels_block (hO : Ok m) (c : Dev nD) (t : Fin (cfgM m hO).N) (n : Fin 2048) :
    (iblk m hO c 1 t : Vec F S1x1x2048 .i32) (ix3 (0 : Fin 1) (0 : Fin 1) n)
      = (m ((c : Thread nD τ).loc main_arg1) : S32x2048.Idx → BitVec 32) (ix2 (pt m hO t) n) := by
  have hi := index1 (adm m hO) t
  show (V m c main_v0 : S32x1x2048.Idx → BitVec 32) ((((cfgM m hO).win 1).blk t).view.emb (ix3 (0 : Fin 1) (0 : Fin 1) n)) = _
  rw [V_labels]
  refine (broadcastInDim_apply _ Facts₀.bcast_S32x2048_S32x1x2048_0_2 _ _ (ix2 (pt m hO t) n) (fun a => ?_))
  match a with
  | ⟨0, _⟩ => show t.val = if (32 : Nat) = 1 then 0 else _; rw [if_neg (by decide)]
              show t.val = ((cfgM m hO).win 1).index t (0 : Fin 3) * 1 + 1 * 0
              rw [congrFun hi (0 : Fin 3)]; show t.val = t.val * 1 + 1 * 0; omega
  | ⟨1, _⟩ => show n.val = if (2048 : Nat) = 1 then 0 else _; rw [if_neg (by decide)]
              show n.val = ((cfgM m hO).win 1).index t (2 : Fin 3) * 2048 + 1 * n.val
              rw [congrFun hi (2 : Fin 3)]; show n.val = 0 * 2048 + 1 * n.val; omega

end Cert.KernelIdeal.Hand

end
-- ==== Proof.KernelPoint.lean ====
/-
  The kernel body's one store, read at a point: at lane `n` the stored value is the negative log-likelihood of the
  lane's label over the lane's column of the logits block.
-/
import proofs.«425126_j28492813041772_1_alg».proof.Proof.Gen.KernelIdeal.Skeleton
import proofs.«425126_j28492813041772_1_alg».proof.Proof.CrossEntropy
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Point

open Idealize.ShloMosaic Idealize.ShloMosaic.ValueIdx Cert.KernelIdeal Cert.KernelIdeal.Gen

/-! ## The layout operations of the body, read at a point -/

section Layout
variable {α : Type}

/-- The block [1, 1, 50, 2048] viewed as [50, 2048] reads (0, 0, p, n) at (p, n): the two row-major positions agree. -/
theorem cast_block_apply (x : S1x1x50x2048.Idx → α) (h : S1x1x50x2048.ShapeCasts S50x2048) (p : Fin 50) (n : Fin 2048) :
    shapeCast S50x2048 x h (ix2 p n) = x (ix4 (0 : Fin 1) (0 : Fin 1) p n) :=
  shapeCast_apply x h _ _ (by
    rw [Shape.rowMajor_val_four, Shape.rowMajor_val_two]
    show ((0 * 1 + 0) * 50 + p.val) * 2048 + n.val = p.val * 2048 + n.val
    omega)

/-- The labels [1, 1, 2048] viewed as [2048] read (0, 0, n) at n. -/
theorem cast_labels_apply (x : S1x1x2048.Idx → α) (h : S1x1x2048.ShapeCasts S2048) (n : Fin 2048) :
    shapeCast S2048 x h (ix1 n) = x (ix3 (0 : Fin 1) (0 : Fin 1) n) :=
  shapeCast_apply x h _ _ (by
    rw [Shape.rowMajor_val_three, Shape.rowMajor_val_one]
    show (0 * 1 + 0) * 2048 + n.val = n.val
    omega)

/-- A lane vector [2048] stored as [1, 1, 2048] reads n at (0, 0, n). -/
theorem cast_store_apply (x : S2048.Idx → α) (h : S2048.ShapeCasts S1x1x2048) (n : Fin 2048) :
    shapeCast S1x1x2048 x h (ix3 (0 : Fin 1) (0 : Fin 1) n) = x (ix1 n) :=
  shapeCast_apply x h _ _ (by
    rw [Shape.rowMajor_val_three, Shape.rowMajor_val_one]
    show n.val = (0 * 1 + 0) * 2048 + n.val
    omega)

/-- A lane vector [2048] made one row [1, 2048] and spread over the fifty rows reads n at every (p, n). -/
theorem row_spread_apply (x : S2048.Idx → α) (h1 : S2048.ShapeCasts S1x2048) (h2 : S1x2048.Broadcasts S50x2048)
    (p : Fin 50) (n : Fin 2048) : broadcastTo S50x2048 (shapeCast S1x2048 x h1) h2 (ix2 p n) = x (ix1 n) :=
  (broadcastTo_1b_ab_apply _ h2 p n).trans (shapeCast_a_1a_apply x h1 (0 : Fin 1) n)

end Layout

/-! ## The two lane reductions, read at a lane -/

/-- Over lane `n`, the source index with row `k` inserted is (k, n). -/
theorem lift_lane (h : S50x2048.Reduces [0] S2048) (n : Fin 2048) (k : Fin 50) : h.lift (ix1 n) k = ix2 k n := by
  funext a
  match a with
  | ⟨0, _⟩ => rfl
  | ⟨1, _⟩ => rfl

/-- The maximum over the rows from −∞, at lane `n`: the maximum of the lane's column. -/
theorem colmax_apply (x : FVec Ideal S50x2048 .f32) (h : S50x2048.Reduces [0] S2048) (hφ : FKind.Formats .f32)
    (hacc : (0xFF800000#32 : BitVec 32) = FKind.maximumf.neutral .f32 hφ) (n : Fin 2048) :
    multiReduction .maximumf [0] S2048 x 0xFF800000#32 h hφ hacc (ix1 n) = Cert.CrossEntropy.colMax (fun p => x (ix2 p n)) := by
  rw [Ideal.multiReduction_maximumf_single]
  unfold Cert.CrossEntropy.colMax
  exact congrArg (Finset.fold max _ · _) (funext fun k => congrArg x (lift_lane h n k))

/-- The sum over the rows, at lane `n`: the sum of the lane's column. -/
theorem colsum_apply (x : FVec Ideal S50x2048 .f32) (h : S50x2048.Reduces [0] S2048) (hφ : FKind.Formats .f32)
    (hacc : (0x00000000#32 : BitVec 32) = FKind.add.neutral .f32 hφ) (n : Fin 2048) :
    multiReduction .add [0] S2048 x 0x00000000#32 h hφ hacc (ix1 n) = ∑ p : Fin 50, x (ix2 p n) := by
  rw [Ideal.multiReduction_add_single]
  exact Finset.sum_congr rfl fun k _ => congrArg x (lift_lane h n k)

/-! ## The log-softmax of a column -/

section Column
variable (x : FVec Ideal S50x2048 .f32) (hr : S50x2048.Reduces [0] S2048) (hφ : FKind.Formats .f32)
  (hmax : (0xFF800000#32 : BitVec 32) = FKind.maximumf.neutral .f32 hφ)
  (hadd : (0x00000000#32 : BitVec 32) = FKind.add.neutral .f32 hφ)
  (h1 : S2048.ShapeCasts S1x2048) (h2 : S1x2048.Broadcasts S50x2048) (p : Fin 50) (n : Fin 2048)

/-- An entry less its lane's maximum is the shifted entry of the lane's column. -/
theorem shifted_apply :
    subf x (broadcastTo S50x2048 (shapeCast S1x2048 (multiReduction .maximumf [0] S2048 x 0xFF800000#32 hr hφ hmax) h1) h2) (ix2 p n)
      = Cert.CrossEntropy.shifted (fun q => x (ix2 q n)) p := by
  rw [subf_apply, row_spread_apply, colmax_apply]
  rfl

/-- An entry less the logarithm of its lane's sum of exponentials. -/
theorem sub_logsumexp_apply (y : FVec Ideal S50x2048 .f32) :
    subf y (broadcastTo S50x2048 (log (shapeCast S1x2048 (multiReduction .add [0] S2048 (exp y) 0x00000000#32 hr hφ hadd) h1)) h2) (ix2 p n)
      = y (ix2 p n) - Ideal.log (∑ k : Fin 50, Ideal.exp (y (ix2 k n))) := by
  rw [subf_apply, broadcastTo_1b_ab_apply]
  show y (ix2 p n) - Ideal.log (shapeCast S1x2048 _ h1 (ix2 (0 : Fin 1) n)) = _
  rw [shapeCast_a_1a_apply, colsum_apply]
  rfl

/-- The two steps together, at (p, n): the log-probability of class `p` in the lane's column. -/
theorem logsoftmax_apply :
    subf (subf x (broadcastTo S50x2048 (shapeCast S1x2048 (multiReduction .maximumf [0] S2048 x 0xFF800000#32 hr hφ hmax) h1) h2))
        (broadcastTo S50x2048 (log (shapeCast S1x2048 (multiReduction .add [0] S2048
          (exp (subf x (broadcastTo S50x2048 (shapeCast S1x2048 (multiReduction .maximumf [0] S2048 x 0xFF800000#32 hr hφ hmax) h1) h2)))
          0x00000000#32 hr hφ hadd) h1)) h2) (ix2 p n)
      = Cert.CrossEntropy.logProb (fun q => x (ix2 q n)) p := by
  rw [sub_logsumexp_apply]
  unfold Cert.CrossEntropy.logProb Cert.CrossEntropy.logSumExp
  exact congrArg₂ (· - ·) (shifted_apply x hr hφ hmax h1 h2 p n)
    (congrArg Ideal.log (Finset.sum_congr rfl fun k _ => congrArg Ideal.exp (shifted_apply x hr hφ hmax h1 h2 k n)))

end Column

/-! ## The one-hot row of the label -/

/-- The row number compared with the lane's label, at (p, n): the comparison of the word of `p` with the label word. -/
theorem onehot_apply (l : IVec S2048 32) (hi : S50x2048.Iotas .tc 32 [0]) (h1 : S2048.ShapeCasts S1x2048)
    (h2 : S1x2048.Broadcasts S50x2048) (p : Fin 50) (n : Fin 2048) :
    cmpi .eq (iota .tc S50x2048 32 [0] hi) (broadcastTo S50x2048 (shapeCast S1x2048 l h1) h2) (ix2 p n)
      = IntOp.cmpi .eq (BitVec.ofNat 32 p.val) (l (ix1 n)) := by
  show IntOp.cmpi .eq (iota .tc S50x2048 32 [0] hi (ix2 p n)) (broadcastTo S50x2048 (shapeCast S1x2048 l h1) h2 (ix2 p n)) = _
  rw [iota_single_apply, row_spread_apply]

/-- For a label word below 50, the word of row `p` is the label word exactly when `p` is the label's class. -/
theorem row_eq_label_iff (w : BitVec 32) (hw : w.toNat < 50) (p : Fin 50) :
    BitVec.ofNat 32 p.val = w ↔ p = Cert.CrossEntropy.cls w := by
  have hp : p.val < 50 := p.isLt
  constructor
  · intro e
    refine Fin.ext ?_
    rw [Cert.CrossEntropy.cls_val hw, ← e, BitVec.toNat_ofNat]
    omega
  · intro e
    apply BitVec.eq_of_toNat_eq
    rw [BitVec.toNat_ofNat, e, Cert.CrossEntropy.cls_val hw]
    omega

/-- A select is a function of its three operands. -/
theorem select_congr {α : Type} {c c' : BitVec 1} {a a' b b' : α} (hc : c = c') (ha : a = a') (hb : b = b') :
    Scalar.select c a b = Scalar.select c' a' b' := by
  subst hc ha hb; rfl

/-- The select on that comparison, at a label word below 50: the entry on the label's row, zero on the others. -/
theorem select_label (w : BitVec 32) (hw : w.toNat < 50) (p : Fin 50) (a : EReal) :
    Scalar.select (IntOp.cmpi .eq (BitVec.ofNat 32 p.val) w) a (0 : EReal) = if p = Cert.CrossEntropy.cls w then a else 0 := by
  unfold Scalar.select
  by_cases h : p = Cert.CrossEntropy.cls w
  · rw [if_pos h]
    exact if_pos (IntOp.cmpi_eq.mpr ((row_eq_label_iff w hw p).mpr h))
  · rw [if_neg h]
    exact if_neg fun e => h ((row_eq_label_iff w hw p).mp (IntOp.cmpi_eq.mp e))

/-- The stored block at lane `n`: the loss of the lane's column against the lane's label (a label word below 50). -/
theorem pay_apply (x0 : Vec Ideal S1x1x50x2048 .f32) (x1 : Vec Ideal S1x1x2048 .i32) (n : Fin 2048)
    (hl : (x1 (ix3 (0 : Fin 1) (0 : Fin 1) n)).toNat < 50) :
    k0_pay1 (F := Ideal) x0 x1 (ix3 (0 : Fin 1) (0 : Fin 1) n)
      = Cert.CrossEntropy.nll (fun p => x0 (ix4 (0 : Fin 1) (0 : Fin 1) p n)) (Cert.CrossEntropy.cls (x1 (ix3 (0 : Fin 1) (0 : Fin 1) n))) := by
  unfold k0_pay1
  dsimp only
  -- the stored [1, 1, 2048] block at (0, 0, n) is the lane vector at n, which is 0 − (the masked column's sum)
  refine (cast_store_apply _ _ n).trans ?_
  refine (subf_apply _ _ _).trans ?_
  refine (congrArg₂ (· - ·) Ideal.ofBits_zero_f32 (colsum_apply _ _ _ _ n)).trans ?_
  -- 0 − y = −y, so it remains to show that the masked column sums to the label's log-probability
  rw [Cert.CrossEntropy.zero_sub_ereal]
  unfold Cert.CrossEntropy.nll
  refine congrArg Neg.neg ?_
  refine (Finset.sum_congr rfl fun p _ => ?_).trans
    (Cert.CrossEntropy.masked_sum (Cert.CrossEntropy.logProb fun q => x0 (ix4 (0 : Fin 1) (0 : Fin 1) q n)) _)
  -- row p of the masked column: the select's condition compares p with the label word, its first operand is the
  -- log-probability of class p, its second is zero
  refine (select_apply _ _ _ _).trans ?_
  refine (select_congr
    ((onehot_apply _ _ _ _ p n).trans (congrArg (IntOp.cmpi .eq (BitVec.ofNat 32 p.val)) (cast_labels_apply x1 _ n)))
    ((logsoftmax_apply _ _ _ _ _ _ _ p n).trans
      (congrArg (fun X => Cert.CrossEntropy.logProb X p) (funext fun q => cast_block_apply x0 _ q n)))
    Ideal.ofBits_zero_f32).trans ?_
  exact select_label _ hl p _

end Cert.KernelIdeal.Point

end
-- ==== Proof.KernelRun.lean ====
/-
  The idealized kernel's run with its result named: the result array of the call holds the loss at every (b, 0, n),
  and the host lines after it leave its total divided by 65536.
-/
import proofs.«425126_j28492813041772_1_alg».proof.Proof.KernelValue
import proofs.«425126_j28492813041772_1_alg».proof.Proof.KernelPoint

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ) (ρ : Dev nD → PrngReg)

/-- The three arguments as the arrays they are. -/
abbrev logits (c : Dev nD) : S16x32x50x2048.Idx → EReal := m ((c : Thread nD τ).loc main_arg0)
abbrev pointLabels (c : Dev nD) : S32x2048.Idx → BitVec 32 := m ((c : Thread nD τ).loc main_arg1)
abbrev shapeLabels (c : Dev nD) : S32.Idx → BitVec 32 := m ((c : Thread nD τ).loc main_arg2)

/-- What the call's result array ends holding: the loss at every (b, 0, n). -/
def lossArr (c : Dev nD) : S32x1x2048.Idx → EReal := fun i =>
  Cert.CrossEntropy.loss (logits m c) (pointLabels m c) (shapeLabels m c) (i (0 : Fin 3)) (i (2 : Fin 3))

/-- The table the region finds is the shape-labels argument (there is one device). -/
theorem label_eq (c : Dev nD) (b : Fin 32) : label m b = shapeLabels m c (ix1 b) := by
  obtain rfl : c = 0 := Subsingleton.elim _ _
  show (tbl m 0 : S32.Idx → BitVec 32) (ix1 b) = _
  rw [show tbl m 0 = m (((0 : Dev nD) : Thread nD τ).loc main_arg2) from V_main_arg2 m 0]

/-- What a point stores: at lane n, the loss of the point's sample at n. -/
theorem block_eq (hO : Ok m) (hpl : ∀ (c : Dev nD) (i : S32x2048.Idx), (pointLabels m c i).toNat < 50) (c : Dev nD)
    (t : Fin (cfgM m hO).N) (y : S1x1x2048.Idx) :
    k0_pay1 (F := Ideal) (iblk m hO c 0 t) (iblk m hO c 1 t) y
      = Cert.CrossEntropy.loss (logits m c) (pointLabels m c) (shapeLabels m c) (pt m hO t) (y (2 : Fin 3)) := by
  obtain ⟨a, b, n, rfl⟩ : ∃ (a : Fin 1) (b : Fin 1) (n : Fin 2048), y = ix3 a b n := ⟨y 0, y 1, y 2, eq_ix3 y⟩
  obtain rfl : a = 0 := Subsingleton.elim _ _
  obtain rfl : b = 0 := Subsingleton.elim _ _
  have hlab : (iblk m hO c 1 t : Vec Ideal S1x1x2048 .i32) (ix3 (0 : Fin 1) (0 : Fin 1) n) = pointLabels m c (ix2 (pt m hO t) n) :=
    labels_block m hO c t n
  have hl : ((iblk m hO c 1 t : Vec Ideal S1x1x2048 .i32) (ix3 (0 : Fin 1) (0 : Fin 1) n)).toNat < 50 :=
    lt_of_eq_of_lt (congrArg BitVec.toNat hlab) (hpl c _)
  refine (Cert.KernelIdeal.Point.pay_apply (iblk m hO c 0 t) (iblk m hO c 1 t) n hl).trans ?_
  have hcol : (fun p : Fin 50 => (iblk m hO c 0 t : Vec Ideal S1x1x50x2048 .f32) (ix4 (0 : Fin 1) (0 : Fin 1) p n))
      = fun p : Fin 50 => logits m c (ix4 (Cert.CrossEntropy.head (shapeLabels m c (ix1 (pt m hO t)))) (pt m hO t) p n) :=
    funext fun p => (logits_block m hO c t p n).trans (by rw [label_eq m c])
  show Cert.CrossEntropy.nll _ _ = Cert.CrossEntropy.nll _ _
  exact congr (congrArg Cert.CrossEntropy.nll hcol) (congrArg Cert.CrossEntropy.cls hlab)

/-! ## The array the call leaves -/

/-- Window 2's block index at a point: (the point, 0, 0), at any contents of the table. -/
theorem index2 (a : (pcfg0 (F := Ideal)).Adm) : ∀ t : Fin (cfg0 a).N, ((cfg0 a).win 2).index t = ![t.val, 0, 0] :=
  (by decide : ∀ t : Fin grid0.N, cc0_transform_2 (grid0.coords t) = ![t.val, 0, 0])

/-- What a point writes back is the loss array read through the point's block. -/
theorem flushed_eq (hO : Ok m) (hpl : ∀ (c : Dev nD) (i : S32x2048.Idx), (pointLabels m c i).toNat < 50) (c : Dev nD)
    (t : Fin (cfgM m hO).N) (_ : ((cfgM m hO).win 2).flush t = true) :
    (dats m hO 0 c).flushed 2 t = (((cfgM m hO).win 2).blk t).view.read (Elt Ideal) (lossArr m c) := by
  show ((cfgM m hO).win 2).cut (grid0.coords t) ((dats m hO 0 c).after 2 t) = _
  rw [after0_2]
  have ho : outsAt0 m hO c t = k0_pay1 (F := Ideal) (iblk m hO c 0 t) (iblk m hO c 1 t) := by
    unfold outsAt0; exact out_eq c _ _ _ _ _ _ _ _ _ _
  funext y
  have hi := index2 (adm m hO) t
  show outsAt0 m hO c t (((cfgM m hO).win 2).xinj (grid0.coords t) y)
      = lossArr m c ((((cfgM m hO).win 2).blk t).view.emb y)
  refine (congrFun ho _).trans ?_
  refine (block_eq m hO hpl c t _).trans ?_
  unfold lossArr
  have h0 : (y (0 : Fin 3)).val < 1 := (y (0 : Fin 3)).isLt
  congr 1
  · apply Fin.ext
    show t.val = ((cfgM m hO).win 2).index t (0 : Fin 3) * 1 + 1 * (y (0 : Fin 3)).val
    rw [congrFun hi (0 : Fin 3)]; show t.val = t.val * 1 + 1 * (y (0 : Fin 3)).val; omega
  · apply Fin.ext
    show (y (2 : Fin 3)).val = ((cfgM m hO).win 2).index t (2 : Fin 3) * 2048 + 1 * (y (2 : Fin 3)).val
    rw [congrFun hi (2 : Fin 3)]; show (y (2 : Fin 3)).val = 0 * 2048 + 1 * (y (2 : Fin 3)).val; omega

/-- The 32 rows tile the result: (b, 0, n) lies in the block of point b. -/
theorem cover (hO : Ok m) (i : S32x1x2048.Idx) :
    ∃ t : Fin (cfgM m hO).N, ((cfgM m hO).win 2).flush t = true ∧ i ∈ (((cfgM m hO).win 2).blk t).view.set := by
  have hb : (i (0 : Fin 3)).val < 32 := (i (0 : Fin 3)).isLt
  have h1 : (i (1 : Fin 3)).val < 1 := (i (1 : Fin 3)).isLt
  have h2 : (i (2 : Fin 3)).val < 2048 := (i (2 : Fin 3)).isLt
  let t : Fin (cfgM m hO).N := ⟨(i (0 : Fin 3)).val, by rw [N_eq m hO]; exact hb⟩
  have hi := index2 (adm m hO) t
  refine ⟨t, flush0_2 (adm m hO) t, ?_⟩
  have hs : (((cfgM m hO).win 2).blk t).view.set = (((cfgM m hO).win 2).rect t).set := View.set_slice_whole main_v1 _
  refine (congrArg (fun S => i ∈ S) hs).mpr (Rect.mem_set_unit.mpr fun a => ?_)
  match a with
  | ⟨0, _⟩ => show ((cfgM m hO).win 2).index t (0 : Fin 3) * 1 ≤ (i (0 : Fin 3)).val ∧ (i (0 : Fin 3)).val < ((cfgM m hO).win 2).index t (0 : Fin 3) * 1 + 1
              rw [congrFun hi (0 : Fin 3)]; show (i (0 : Fin 3)).val * 1 ≤ (i (0 : Fin 3)).val ∧ (i (0 : Fin 3)).val < (i (0 : Fin 3)).val * 1 + 1; omega
  | ⟨1, _⟩ => show ((cfgM m hO).win 2).index t (1 : Fin 3) * 1 ≤ (i (1 : Fin 3)).val ∧ (i (1 : Fin 3)).val < ((cfgM m hO).win 2).index t (1 : Fin 3) * 1 + 1
              rw [congrFun hi (1 : Fin 3)]; show 0 * 1 ≤ (i (1 : Fin 3)).val ∧ (i (1 : Fin 3)).val < 0 * 1 + 1; omega
  | ⟨2, _⟩ => show ((cfgM m hO).win 2).index t (2 : Fin 3) * 2048 ≤ (i (2 : Fin 3)).val ∧ (i (2 : Fin 3)).val < ((cfgM m hO).win 2).index t (2 : Fin 3) * 2048 + 2048
              rw [congrFun hi (2 : Fin 3)]; show 0 * 2048 ≤ (i (2 : Fin 3)).val ∧ (i (2 : Fin 3)).val < 0 * 2048 + 2048; omega

/-- So the call's result array ends holding the losses. -/
theorem final (hO : Ok m) (hpl : ∀ (c : Dev nD) (i : S32x2048.Idx), (pointLabels m c i).toNat < 50) (c : Dev nD) :
    (dats m hO 0 c).arrAt 2 (cfgM m hO).N = lossArr m c :=
  (dats m hO 0 c).arrAt_eq_of_cover 2 (lossArr m c) (flushed_eq m hO hpl c) (cover m hO)

/-! ## The host lines after the call, and the run -/

/-- The mean the kernel's @main returns: the total of the losses over [32, 1, 2048], from 0, divided by 65536. -/
def mean (c : Dev nD) : S_.Idx → EReal :=
  Host.divf (F := Ideal) (Host.reduceAdd (F := Ideal) (lossArr m c) (constant (F := Ideal) S_ .f32 0x00000000#32) Facts₀.reducesTo_S32x1x2048_S_d0_1_2 Facts₀.h_S_)
    (constant (F := Ideal) S_ .f32 0x47800000#32)

/-- What the lines after the call leave in the result buffer. -/
theorem tail_eq (hO : Ok m) (hpl : ∀ (c : Dev nD) (i : S32x2048.Idx), (pointLabels m c i).toNat < 50) (c : Dev nD) :
    Pipeline.afterTail pcfgs (fun _ => adm m hO) (dats m hO) 0 (V0 m) [hostOps1] c main_v3 = mean m c := by
  unfold Pipeline.afterTail
  show StableHlo.after hostOps1 _ (Proc.devRef .tc main_v3) = _
  after_results
  have hA : (Pipeline.withArrays (Pipeline.pin pcfgs (fun _ => adm m hO) 0).spec c (V0 m c)
      (fun w => (dats m hO 0 c).arrAt w (Pipeline.pin pcfgs (fun _ => adm m hO) 0).N)) (Proc.devRef .tc main_v1) = lossArr m c :=
    (Pipeline.withArrays_arr spec0 (launch0 (F := Ideal)).win.arr_inj c _ _ 2).trans (final m hO hpl c)
  rw [hA]
  rfl

/-- THE KERNEL'S RUN with its result named: under the table's side condition and with every point label a class, every
    weakly fair execution terminates with the result at the mean of the losses and the arguments unchanged. -/
theorem run (hO : Ok m) (hpl : ∀ (c : Dev nD) (i : S32x2048.Idx), (pointLabels m c i).toNat < 50) :
    θ_run defs (onTc (τ := τ) (main (F := Ideal))) ⟨m, fun _ => 0, ρ⟩ fun r => ∀ c : Dev nD,
      r.2.mem ((c.tc : Thread nD τ).loc main_v3) = mean m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (by decide : main_v3 ∈ Pipeline.restRefs sig spec0)).trans (tail_eq m hO hpl c),
        ((h c).1 0).trans (((dats m hO 0 c).arrAt_in 0 rfl _).trans ((A_eq m hO c 0).trans (V_main_arg0 m c))),
        ((h c).2 main_arg1 (by decide : main_arg1 ∈ Pipeline.restRefs sig spec0)).trans (W_main_arg1 m hO (dats m hO) c),
        ((h c).2 main_arg2 (by decide : main_arg2 ∈ Pipeline.restRefs sig spec0)).trans (W_main_arg2 m hO (dats m hO) c)⟩)
    (run_main m ρ hO)

end Cert.KernelIdeal.Hand

end
-- ==== Proof.RefRun.lean ====
/-
  The reference program's run, read back in five stretches. Its @main is a line of 63 host operations: the first 19
  normalise the shape labels and gather each sample's block of logits; the next 15 are the log-softmax over the class
  axis; one gives the point labels a unit class axis; 22 take the log-probability at each point's label; the last 6
  reshape, negate, total and divide. Each stretch is run from
  an ARBITRARY valuation of the buffers, so that no stretch's term carries the ones before it: a stretch's result is a
  function of the few buffers it reads, and the five compose. The result is stated over the stages `val_…` of the
  operations read one at a time. The two called functions' operations carry their values through a typed
  reference's transport and back; a value carried there and back is the value (`cast_there_and_back`), which is all
  the stretches need of it.
-/
import proofs.«425126_j28492813041772_1_alg».proof.Proof.RefRead

noncomputable section

namespace Cert.ReferenceIdeal.Staged

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- A value carried along an equation of types and back along another is the value. -/
theorem cast_there_and_back {α β : Type} (h : α = β) (h' : β = α) (v : β) : cast h (cast h' v) = v := by
  subst h; rfl

/-- Running a line cut in two is running the second part from where the first part ends. -/
theorem after_cut : ∀ (l₁ l₂ : List (HloOp τ sig (Elt F))) (V : Valuation τ sig (Elt F)),
    after (l₁ ++ l₂) V = after l₂ (after l₁ V)
  | [], _, _ => rfl
  | op :: l₁, l₂, V => after_cut l₁ l₂ (op.result V)

/-- Operations 1–19: the labels normalised, the start indices joined, the logits gathered. -/
abbrev gatherOps : List (HloOp τ sig (Elt F)) :=
  [ nullary main_v0 (iotaInDim S32 32 0),
    nullary main_c (constantI S_ 32 0#32),
    unary main_c main_v1 (broadcastInDim S32 ![] bcast_S_S32 : (⟨S_, .i32⟩ : BufTy).Contents (Elt F) → (⟨S32, .i32⟩ : BufTy).Contents (Elt F)),
    binary main_arg2 main_v1 main_v2 (cmpi .slt : (⟨S32, .i32⟩ : BufTy).Contents (Elt F) → (⟨S32, .i32⟩ : BufTy).Contents (Elt F) → (⟨S32, .i1⟩ : BufTy).Contents (Elt F)),
    nullary main_c_0 (constantI S_ 32 16#32),
    unary main_c_0 main_v3 (broadcastInDim S32 ![] bcast_S_S32 : (⟨S_, .i32⟩ : BufTy).Contents (Elt F) → (⟨S32, .i32⟩ : BufTy).Contents (Elt F)),
    binary main_arg2 main_v3 main_v4 (addi : (⟨S32, .i32⟩ : BufTy).Contents (Elt F) → (⟨S32, .i32⟩ : BufTy).Contents (Elt F) → (⟨S32, .i32⟩ : BufTy).Contents (Elt F)),
    ternary main_v2 main_v4 main_arg2 main_v5 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    nullary main_c_1 (constantI S_ 32 0#32),
    unary main_c_1 main_v6 (broadcastInDim S32 ![] bcast_S_S32 : (⟨S_, .i32⟩ : BufTy).Contents (Elt F) → (⟨S32, .i32⟩ : BufTy).Contents (Elt F)),
    binary main_v0 main_v6 main_v7 (cmpi .slt : (⟨S32, .i32⟩ : BufTy).Contents (Elt F) → (⟨S32, .i32⟩ : BufTy).Contents (Elt F) → (⟨S32, .i1⟩ : BufTy).Contents (Elt F)),
    nullary main_c_2 (constantI S_ 32 32#32),
    unary main_c_2 main_v8 (broadcastInDim S32 ![] bcast_S_S32 : (⟨S_, .i32⟩ : BufTy).Contents (Elt F) → (⟨S32, .i32⟩ : BufTy).Contents (Elt F)),
    binary main_v0 main_v8 main_v9 (addi : (⟨S32, .i32⟩ : BufTy).Contents (Elt F) → (⟨S32, .i32⟩ : BufTy).Contents (Elt F) → (⟨S32, .i32⟩ : BufTy).Contents (Elt F)),
    ternary main_v7 main_v9 main_v0 main_v10 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v5 main_v11 (broadcastInDim S32x1 ![0] bcast_S32_S32x1_0 : (⟨S32, .i32⟩ : BufTy).Contents (Elt F) → (⟨S32x1, .i32⟩ : BufTy).Contents (Elt F)),
    unary main_v10 main_v12 (broadcastInDim S32x1 ![0] bcast_S32_S32x1_0 : (⟨S32, .i32⟩ : BufTy).Contents (Elt F) → (⟨S32x1, .i32⟩ : BufTy).Contents (Elt F)),
    binary main_v11 main_v12 main_v13 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    binary main_arg0 main_v13 main_v14 ((fun x i => Host.gather gather_S16x32x50x2048_S32x2_S32x50x2048_12_01_n_n_01_1_11502048 x i) : (⟨S16x32x50x2048, .f32⟩ : BufTy).Contents (Elt F) → (⟨S32x2, .i32⟩ : BufTy).Contents (Elt F) → (⟨S32x50x2048, .f32⟩ : BufTy).Contents (Elt F)) ]

/-- Operations 20–34: the log-softmax over the class axis. -/
abbrev softmaxOps : List (HloOp τ sig (Elt F)) :=
  [ TRef.nullary (TRef.of (T := ⟨S_, .f32⟩) main_call0_cst) (constant S_ .f32 0xFF800000#32),
    TRef.binary (TRef.of (T := ⟨S32x50x2048, .f32⟩) main_v14) (TRef.of (T := ⟨S_, .f32⟩) main_call0_cst) (TRef.of (T := ⟨S32x2048, .f32⟩) main_call0_v0) (fun x v => Host.reduce FloatOps.maximumf x v reducesTo_S32x50x2048_S32x2048_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S32x2048, .f32⟩) main_call0_v1) (broadcastInDim S32x2048 ![] bcast_S_S32x2048),
    TRef.binary (TRef.of (T := ⟨S32x2048, .f32⟩) main_call0_v1) (TRef.of (T := ⟨S32x2048, .f32⟩) main_call0_v0) (TRef.of (T := ⟨S32x2048, .f32⟩) main_call0_v2) maximumf,
    TRef.unary (TRef.of (T := ⟨S32x2048, .f32⟩) main_call0_v2) (TRef.of (T := ⟨S32x1x2048, .f32⟩) main_call0_v3) (broadcastInDim S32x1x2048 ![0, 2] bcast_S32x2048_S32x1x2048_0_2),
    TRef.unary (TRef.of (T := ⟨S32x1x2048, .f32⟩) main_call0_v3) (TRef.of (T := ⟨S32x50x2048, .f32⟩) main_call0_v4) (broadcastInDim S32x50x2048 ![0, 1, 2] bcast_S32x1x2048_S32x50x2048_0_1_2),
    TRef.binary (TRef.of (T := ⟨S32x50x2048, .f32⟩) main_v14) (TRef.of (T := ⟨S32x50x2048, .f32⟩) main_call0_v4) (TRef.of (T := ⟨S32x50x2048, .f32⟩) main_call0_v5) subf,
    TRef.unary (TRef.of (T := ⟨S32x50x2048, .f32⟩) main_call0_v5) (TRef.of (T := ⟨S32x50x2048, .f32⟩) main_call0_v6) Host.exp,
    TRef.nullary (TRef.of (T := ⟨S_, .f32⟩) main_call0_cst_1) (constant S_ .f32 0x00000000#32),
    TRef.binary (TRef.of (T := ⟨S32x50x2048, .f32⟩) main_call0_v6) (TRef.of (T := ⟨S_, .f32⟩) main_call0_cst_1) (TRef.of (T := ⟨S32x2048, .f32⟩) main_call0_v7) (fun x v => Host.reduceAdd x v reducesTo_S32x50x2048_S32x2048_d1 h_S_),
    TRef.unary (TRef.of (T := ⟨S32x2048, .f32⟩) main_call0_v7) (TRef.of (T := ⟨S32x1x2048, .f32⟩) main_call0_v8) (broadcastInDim S32x1x2048 ![0, 2] bcast_S32x2048_S32x1x2048_0_2),
    TRef.unary (TRef.of (T := ⟨S32x1x2048, .f32⟩) main_call0_v8) (TRef.of (T := ⟨S32x1x2048, .f32⟩) main_call0_v9) Host.log,
    TRef.unary (TRef.of (T := ⟨S32x1x2048, .f32⟩) main_call0_v9) (TRef.of (T := ⟨S32x50x2048, .f32⟩) main_call0_v10) (broadcastInDim S32x50x2048 ![0, 1, 2] bcast_S32x1x2048_S32x50x2048_0_1_2),
    TRef.binary (TRef.of (T := ⟨S32x50x2048, .f32⟩) main_call0_v5) (TRef.of (T := ⟨S32x50x2048, .f32⟩) main_call0_v10) (TRef.of (T := ⟨S32x50x2048, .f32⟩) main_v15) subf ]

/-- Operation 35: the point labels given their unit class axis. -/
abbrev labelOps : List (HloOp τ sig (Elt F)) :=
  [ unary main_arg1 main_v16 (broadcastInDim S32x1x2048 ![0, 2] bcast_S32x2048_S32x1x2048_0_2 : (⟨S32x2048, .i32⟩ : BufTy).Contents (Elt F) → (⟨S32x1x2048, .i32⟩ : BufTy).Contents (Elt F)) ]

/-- Operations 36–57: `take_along_axis`, the log-probability at each point's label. -/
abbrev takeOps : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S32x1x2048, .i32⟩) main_call1_v0) (broadcastInDim S32x1x2048 ![] bcast_S_S32x1x2048),
    TRef.binary (TRef.of (T := ⟨S32x1x2048, .i32⟩) main_v16) (TRef.of (T := ⟨S32x1x2048, .i32⟩) main_call1_v0) (TRef.of (T := ⟨S32x1x2048, .i1⟩) main_call1_v1) (cmpi .slt),
    TRef.nullary (TRef.of (T := ⟨S_, .i32⟩) main_call1_c_0) (constantI S_ 32 50#32),
    TRef.unary (TRef.of (T := ⟨S_, .i32⟩) main_call1_c_0) (TRef.of (T := ⟨S32x1x2048, .i32⟩) main_call1_v2) (broadcastInDim S32x1x2048 ![] bcast_S_S32x1x2048),
    TRef.binary (TRef.of (T := ⟨S32x1x2048, .i32⟩) main_v16) (TRef.of (T := ⟨S32x1x2048, .i32⟩) main_call1_v2) (TRef.of (T := ⟨S32x1x2048, .i32⟩) main_call1_v3) addi,
    TRef.ternary (TRef.of (T := ⟨S32x1x2048, .i1⟩) main_call1_v1) (TRef.of (T := ⟨S32x1x2048, .i32⟩) main_call1_v3) (TRef.of (T := ⟨S32x1x2048, .i32⟩) main_v16) (TRef.of (T := ⟨S32x1x2048, .i32⟩) main_call1_v4) select,
    TRef.reshape (TRef.of (T := ⟨S32x1x2048, .i32⟩) main_call1_v4) (TRef.of (T := ⟨S32x1x2048x1, .i32⟩) main_call1_v5) rfl shapeCasts_S32x1x2048_S32x1x2048x1,
    TRef.nullary (TRef.of (T := ⟨S1, .i32⟩) main_call1_c_1) (constantI S1 32 49#32),
    TRef.nullary (TRef.of (T := ⟨S_, .i32⟩) main_call1_c_2) (constantI S_ 32 0#32),
    TRef.unary (TRef.of (T := ⟨S_, .i32⟩) main_call1_c_2) (TRef.of (T := ⟨S32x1x2048x1, .i32⟩) main_call1_v6) (broadcastInDim S32x1x2048x1 ![] bcast_S_S32x1x2048x1),
    TRef.binary (TRef.of (T := ⟨S32x1x2048x1, .i32⟩) main_call1_v5) (TRef.of (T := ⟨S32x1x2048x1, .i32⟩) main_call1_v6) (TRef.of (T := ⟨S32x1x2048x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S32x1x2048x1, .i32⟩) main_call1_v9) (broadcastInDim S32x1x2048x1 ![0, 1, 2, 3] bcast_S1x1x1x1_S32x1x2048x1_0_1_2_3),
    TRef.binary (TRef.of (T := ⟨S32x1x2048x1, .i32⟩) main_call1_v5) (TRef.of (T := ⟨S32x1x2048x1, .i32⟩) main_call1_v9) (TRef.of (T := ⟨S32x1x2048x1, .i1⟩) main_call1_v10) (cmpi .sle),
    TRef.binary (TRef.of (T := ⟨S32x1x2048x1, .i1⟩) main_call1_v7) (TRef.of (T := ⟨S32x1x2048x1, .i1⟩) main_call1_v10) (TRef.of (T := ⟨S32x1x2048x1, .i1⟩) main_call1_v11) andi,
    TRef.nullary (TRef.of (T := ⟨S_, .i1⟩) main_call1_c_3) (constantI S_ 1 1#1),
    TRef.binary (TRef.of (T := ⟨S32x1x2048x1, .i1⟩) main_call1_v11) (TRef.of (T := ⟨S_, .i1⟩) main_call1_c_3) (TRef.of (T := ⟨S32x1x2048, .i1⟩) main_call1_v12) (fun x v => Host.reduce IntOp.andi x v reducesTo_S32x1x2048x1_S32x1x2048_d3 h_S_),
    TRef.binary (TRef.of (T := ⟨S32x50x2048, .f32⟩) main_v15) (TRef.of (T := ⟨S32x1x2048x1, .i32⟩) main_call1_v5) (TRef.of (T := ⟨S32x1x2048, .f32⟩) main_call1_v13) (fun x i => Host.gather gather_S32x50x2048_S32x1x2048x1_S32x1x2048_n_1_02_02_1_3_111 x i),
    TRef.nullary (TRef.of (T := ⟨S_, .f32⟩) main_call1_cst) (constant S_ .f32 0x7FC00000#32),
    TRef.unary (TRef.of (T := ⟨S_, .f32⟩) main_call1_cst) (TRef.of (T := ⟨S32x1x2048, .f32⟩) main_call1_v14) (broadcastInDim S32x1x2048 ![] bcast_S_S32x1x2048),
    TRef.ternary (TRef.of (T := ⟨S32x1x2048, .i1⟩) main_call1_v12) (TRef.of (T := ⟨S32x1x2048, .f32⟩) main_call1_v13) (TRef.of (T := ⟨S32x1x2048, .f32⟩) main_call1_v14) (TRef.of (T := ⟨S32x1x2048, .f32⟩) main_v17) select ]

/-- Operations 58–63: the taken values reshaped, negated, totalled, divided. -/
abbrev meanOps : List (HloOp τ sig (Elt F)) :=
  [ reshape main_v17 main_v18 rfl shapeCasts_S32x1x2048_S32x2048,
    unary main_v18 main_v19 (Host.negf : (⟨S32x2048, .f32⟩ : BufTy).Contents (Elt F) → (⟨S32x2048, .f32⟩ : BufTy).Contents (Elt F)),
    nullary main_cst (constant S_ .f32 0x00000000#32),
    binary main_v19 main_cst main_v20 ((fun x v => Host.reduceAdd x v reducesTo_S32x2048_S_d0_1 h_S_) : (⟨S32x2048, .f32⟩ : BufTy).Contents (Elt F) → (⟨S_, .f32⟩ : BufTy).Contents (Elt F) → (⟨S_, .f32⟩ : BufTy).Contents (Elt F)),
    nullary main_cst_3 (constant S_ .f32 0x47800000#32),
    binary main_v20 main_cst_3 main_v21 (Host.divf : (⟨S_, .f32⟩ : BufTy).Contents (Elt F) → (⟨S_, .f32⟩ : BufTy).Contents (Elt F) → (⟨S_, .f32⟩ : BufTy).Contents (Elt F)) ]

set_option maxRecDepth 8192 in
/-- The line is its five stretches. -/
theorem ops_cut : (ops : List (HloOp τ sig (Elt F))) = gatherOps ++ (softmaxOps ++ (labelOps ++ (takeOps ++ meanOps))) := rfl

/-! ## The three stretches, each from an arbitrary valuation -/

/-- The first stretch leaves the gathered logits: the stage `val_main_v14` of the logits and the shape labels it finds. -/
theorem gather_stretch (W : Valuation τ sig (Elt F)) :
    after gatherOps W (Proc.devRef .tc main_v14)
      = val_main_v14 (F := F) (W (Proc.devRef .tc main_arg0)) (W (Proc.devRef .tc main_arg2)) := by
  after_results_simp <;> rfl

/-- It writes none of the arguments. -/
theorem gather_keeps (W : Valuation τ sig (Elt F)) :
    after gatherOps W (Proc.devRef .tc main_arg0) = W (Proc.devRef .tc main_arg0)
    ∧ after gatherOps W (Proc.devRef .tc main_arg1) = W (Proc.devRef .tc main_arg1)
    ∧ after gatherOps W (Proc.devRef .tc main_arg2) = W (Proc.devRef .tc main_arg2) := by
  refine ⟨?_, ?_, ?_⟩ <;> after_results_simp <;> rfl

/-- The second stretch, from gathered logits that are the stage `val_main_v14`, leaves the stage `val_main_v15`. -/
theorem softmax_stretch (W : Valuation τ sig (Elt F)) (x0 : (⟨S16x32x50x2048, .f32⟩ : BufTy).Contents (Elt F))
    (x2 : (⟨S32, .i32⟩ : BufTy).Contents (Elt F)) (h14 : W (Proc.devRef .tc main_v14) = val_main_v14 (F := F) x0 x2) :
    after softmaxOps W (Proc.devRef .tc main_v15) = val_main_v15 (F := F) x0 x2 := by
  after_results_simp
  simp only [TRef.ofBuf, TRef.toBuf, cast_there_and_back]
  rw [h14]
  rfl

/-- It writes none of the arguments. -/
theorem softmax_keeps (W : Valuation τ sig (Elt F)) :
    after softmaxOps W (Proc.devRef .tc main_arg0) = W (Proc.devRef .tc main_arg0)
    ∧ after softmaxOps W (Proc.devRef .tc main_arg1) = W (Proc.devRef .tc main_arg1)
    ∧ after softmaxOps W (Proc.devRef .tc main_arg2) = W (Proc.devRef .tc main_arg2) := by
  refine ⟨?_, ?_, ?_⟩ <;> after_results_simp <;> rfl

/-- The third stretch leaves the labels' stage `val_main_v16`. -/
theorem label_stretch (W : Valuation τ sig (Elt F)) :
    after labelOps W (Proc.devRef .tc main_v16) = val_main_v16 (F := F) (W (Proc.devRef .tc main_arg1)) := by
  after_results_simp <;> rfl

/-- It writes neither the arguments nor the log-probabilities. -/
theorem label_keeps (W : Valuation τ sig (Elt F)) :
    after labelOps W (Proc.devRef .tc main_arg0) = W (Proc.devRef .tc main_arg0)
    ∧ after labelOps W (Proc.devRef .tc main_arg1) = W (Proc.devRef .tc main_arg1)
    ∧ after labelOps W (Proc.devRef .tc main_arg2) = W (Proc.devRef .tc main_arg2)
    ∧ after labelOps W (Proc.devRef .tc main_v15) = W (Proc.devRef .tc main_v15) := by
  refine ⟨?_, ?_, ?_, ?_⟩ <;> after_results_simp <;> rfl

/-- The fourth stretch, the called `take_along_axis`: from log-probabilities and labels that are their stages, each as
    the call's typed reference carries it into its buffer, it leaves the stage `val_main_v17`, carried likewise. -/
theorem take_stretch (W : Valuation τ sig (Elt F)) (x0 : (⟨S16x32x50x2048, .f32⟩ : BufTy).Contents (Elt F))
    (x1 : (⟨S32x2048, .i32⟩ : BufTy).Contents (Elt F)) (x2 : (⟨S32, .i32⟩ : BufTy).Contents (Elt F))
    (h15 : W (Proc.devRef .tc main_v15) = (TRef.of (T := ⟨S32x50x2048, .f32⟩) main_v15).toBuf (Val := Elt F) (val_main_v15 (F := F) x0 x2))
    (h16 : W (Proc.devRef .tc main_v16) = (TRef.of (T := ⟨S32x1x2048, .i32⟩) main_v16).toBuf (Val := Elt F) (val_main_v16 (F := F) x1)) :
    after takeOps W (Proc.devRef .tc main_v17)
      = (TRef.of (T := ⟨S32x1x2048, .f32⟩) main_v17).toBuf (Val := Elt F) (val_main_v17 (F := F) x0 x1 x2) := by
  after_results_simp
  rw [h15, h16]
  simp only [TRef.ofBuf, TRef.toBuf, cast_there_and_back]
  rfl

/-- It writes none of the arguments. -/
theorem take_keeps (W : Valuation τ sig (Elt F)) :
    after takeOps W (Proc.devRef .tc main_arg0) = W (Proc.devRef .tc main_arg0)
    ∧ after takeOps W (Proc.devRef .tc main_arg1) = W (Proc.devRef .tc main_arg1)
    ∧ after takeOps W (Proc.devRef .tc main_arg2) = W (Proc.devRef .tc main_arg2) := by
  refine ⟨?_, ?_, ?_⟩ <;> after_results_simp <;> rfl

/-- The last stretch, from taken values that are the stage `val_main_v17`, leaves the result's stage `val_main_v21`. -/
theorem mean_stretch (W : Valuation τ sig (Elt F)) (x0 : (⟨S16x32x50x2048, .f32⟩ : BufTy).Contents (Elt F))
    (x1 : (⟨S32x2048, .i32⟩ : BufTy).Contents (Elt F)) (x2 : (⟨S32, .i32⟩ : BufTy).Contents (Elt F))
    (h17 : W (Proc.devRef .tc main_v17) = val_main_v17 (F := F) x0 x1 x2) :
    after meanOps W (Proc.devRef .tc main_v21) = val_main_v21 (F := F) x0 x1 x2 := by
  after_results_simp
  rw [h17]
  rfl

/-- It writes none of the arguments. -/
theorem mean_keeps (W : Valuation τ sig (Elt F)) :
    after meanOps W (Proc.devRef .tc main_arg0) = W (Proc.devRef .tc main_arg0)
    ∧ after meanOps W (Proc.devRef .tc main_arg1) = W (Proc.devRef .tc main_arg1)
    ∧ after meanOps W (Proc.devRef .tc main_arg2) = W (Proc.devRef .tc main_arg2) := by
  refine ⟨?_, ?_, ?_⟩ <;> after_results_simp <;> rfl

/-! ## The whole line, and the run -/

/-- At these three buffers a typed reference carries a value into the buffer unchanged. -/
theorem carried_v15 (X : (⟨S32x50x2048, .f32⟩ : BufTy).Contents (Elt F)) :
    (TRef.of (T := ⟨S32x50x2048, .f32⟩) main_v15).toBuf (Val := Elt F) X = X := rfl
theorem carried_v16 (X : (⟨S32x1x2048, .i32⟩ : BufTy).Contents (Elt F)) :
    (TRef.of (T := ⟨S32x1x2048, .i32⟩) main_v16).toBuf (Val := Elt F) X = X := rfl
theorem carried_v17 (X : (⟨S32x1x2048, .f32⟩ : BufTy).Contents (Elt F)) :
    (TRef.of (T := ⟨S32x1x2048, .f32⟩) main_v17).toBuf (Val := Elt F) X = X := rfl

/-- From the launch contents the line leaves the result at its stage `val_main_v21` of the three arguments. -/
theorem result (m : (ℓ : Loc nD τ sig) → Buf (Elt F) ℓ) (c : Dev nD) :
    after ops (launchContents m c) (Proc.devRef .tc main_v21)
      = val_main_v21 (F := F) (m ((c.tc : Thread nD τ).loc main_arg0)) (m ((c.tc : Thread nD τ).loc main_arg1))
          (m ((c.tc : Thread nD τ).loc main_arg2)) := by
  rw [ops_cut, after_cut, after_cut, after_cut, after_cut]
  refine mean_stretch _ (m ((c.tc : Thread nD τ).loc main_arg0)) (m ((c.tc : Thread nD τ).loc main_arg1))
    (m ((c.tc : Thread nD τ).loc main_arg2)) ?_
  refine (take_stretch _ (m ((c.tc : Thread nD τ).loc main_arg0)) (m ((c.tc : Thread nD τ).loc main_arg1))
    (m ((c.tc : Thread nD τ).loc main_arg2)) ?_ ?_).trans (carried_v17 _)
  · -- the log-probabilities, untouched by the labels' stretch
    rw [(label_keeps _).2.2.2]
    refine (softmax_stretch _ (m ((c.tc : Thread nD τ).loc main_arg0)) (m ((c.tc : Thread nD τ).loc main_arg2)) ?_).trans (carried_v15 _).symm
    exact gather_stretch _
  · -- the labels
    rw [label_stretch, (softmax_keeps _).2.1, (gather_keeps _).2.1]
    exact (carried_v16 _).symm

/-- The line writes none of the arguments. -/
theorem kept (m : (ℓ : Loc nD τ sig) → Buf (Elt F) ℓ) (c : Dev nD) :
    after ops (launchContents m c) (Proc.devRef .tc main_arg0) = m ((c.tc : Thread nD τ).loc main_arg0)
    ∧ after ops (launchContents m c) (Proc.devRef .tc main_arg1) = m ((c.tc : Thread nD τ).loc main_arg1)
    ∧ after ops (launchContents m c) (Proc.devRef .tc main_arg2) = m ((c.tc : Thread nD τ).loc main_arg2) := by
  rw [ops_cut, after_cut, after_cut, after_cut, after_cut]
  refine ⟨?_, ?_, ?_⟩
  · rw [(mean_keeps _).1, (take_keeps _).1, (label_keeps _).1, (softmax_keeps _).1, (gather_keeps _).1]
  · rw [(mean_keeps _).2.1, (take_keeps _).2.1, (label_keeps _).2.1, (softmax_keeps _).2.1, (gather_keeps _).2.1]
  · rw [(mean_keeps _).2.2, (take_keeps _).2.2, (label_keeps _).2.2.1, (softmax_keeps _).2.2, (gather_keeps _).2.2]

/-- On every device, from any memory with zero counters: every weakly fair execution of the reference terminates with
    its result at the stage `val_main_v21` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
        = val_main_v21 (F := F) (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v21).trans (result m c), (h c main_arg0).trans (kept m c).1,
      (h c main_arg1).trans (kept m c).2.1, (h c main_arg2).trans (kept m c).2.2⟩)
    (run_seq scopedRefs_eq scopedSems_eq defs main (fun _ => ops) main_eq (fun _ => ops_sub) m ρ)

end Cert.ReferenceIdeal.Staged

end
-- ==== Proof.RefGather.lean ====
/-
  The reference's first gather, read at an index: sample `b`'s block of logits is the block of the head its shape
  label names (a label word below 16 is its own head: no wrap-around, no clamping).

  The start indices are the two columns (label, sample number) laid side by side, each after the wrap of a negative
  index, which a non-negative word passes through unchanged. The gather reads the operand, on the head and sample
  axes, at the start index's components read signed and clamped so that a slice of extent one fits, and on the
  class and point axes at the result's own coordinates.
-/
import proofs.«425126_j28492813041772_1_alg».proof.Proof.RefRead
import proofs.«425126_j28492813041772_1_alg».proof.Proof.CrossEntropy
import Idealize.ShloMosaic.Lib.ValueIdx
import Idealize.ShloMosaic.Lib.StableHlo.Predicate

noncomputable section

namespace Cert.ReferenceIdeal.Point

open Idealize.ShloMosaic Idealize.ShloMosaic.ValueIdx Cert.ReferenceIdeal Cert.ReferenceIdeal.Gen Cert.ReferenceIdeal.Read

variable {F : FTy → Type} [FloatOps F]

/-- A word below 2³¹ is not below zero as a signed number. -/
theorem logits_slt_zero (w : BitVec 32) (h : w.toNat < 2 ^ 31) : IntOp.cmpi .slt w 0#32 = 0#1 := by
  refine eq_zero_of_ne_one fun h1 => ?_
  have := (StableHlo.Predicate.slt_iff_toNat (a := w) (b := 0#32) h (by decide)).1 h1
  exact Nat.not_lt_zero _ this

/-- The wrap of a negative index leaves a label below 16 alone. -/
theorem logits_wrap_label (x2 : (⟨S32, .i32⟩ : BufTy).Contents (Elt F)) (i : S32.Idx) (h : (x2 i).toNat < 16) :
    val_main_v5 (F := F) x2 i = x2 i := by
  rw [val_main_v5_apply, val_main_v2_apply, val_main_v1_apply, val_main_c_apply,
    logits_slt_zero (x2 i) (by omega), select_zero]

/-- The wrap of a negative index leaves the sample's own number alone. -/
theorem logits_wrap_sample (i : S32.Idx) : val_main_v10 (F := F) i = BitVec.ofNat 32 (i 0).val := by
  have hb : (i 0).val < 32 := (i 0).isLt
  rw [val_main_v10_apply, val_main_v7_apply, val_main_v6_apply, val_main_c_1_apply, val_main_v0_apply,
    logits_slt_zero _ (by rw [BitVec.toNat_ofNat]; omega), select_zero]

/-- Row `b` of the start indices, first component: the sample's label, wrapped. -/
theorem logits_row_label (x2 : (⟨S32, .i32⟩ : BufTy).Contents (Elt F)) (b : Fin 32) :
    val_main_v13 (F := F) x2 (ix2 b (0 : Fin 2)) = val_main_v5 (F := F) x2 (ix1 b) := by
  unfold val_main_v13
  refine (concatenate_pair_apply_left (1 : Fin S32x2.rank) (val_main_v11 (F := F) x2) (val_main_v12 (F := F))
    concatenates_S32x1_S32x1_S32x2_d1 (ix2 b (0 : Fin 2)) rfl (ix2 b (0 : Fin 1)) ?_).trans ?_
  · intro a
    match a with
    | ⟨0, _⟩ => rfl
    | ⟨1, _⟩ => rfl
  · rw [val_main_v11_apply]
    congr 1
    funext a
    match a with
    | ⟨0, _⟩ => rfl

/-- Row `b` of the start indices, second component: the sample's own number, wrapped. -/
theorem logits_row_sample (x2 : (⟨S32, .i32⟩ : BufTy).Contents (Elt F)) (b : Fin 32) :
    val_main_v13 (F := F) x2 (ix2 b (1 : Fin 2)) = val_main_v10 (F := F) (ix1 b) := by
  unfold val_main_v13
  refine (concatenate_pair_apply_right (1 : Fin S32x2.rank) (val_main_v11 (F := F) x2) (val_main_v12 (F := F))
    concatenates_S32x1_S32x1_S32x2_d1 (ix2 b (1 : Fin 2)) rfl rfl (ix2 b (0 : Fin 1)) ?_ ?_).trans ?_
  · intro a ha
    match a with
    | ⟨0, _⟩ => rfl
    | ⟨1, _⟩ => exact absurd rfl ha
  · rfl
  · rw [val_main_v12_apply]
    congr 1
    funext a
    match a with
    | ⟨0, _⟩ => rfl

/-- The first gather's dimension numbers. -/
abbrev logitsDims := gather_S16x32x50x2048_S32x2_S32x50x2048_12_01_n_n_01_1_11502048

/-- The gather has no batching axes. -/
theorem logits_batch_zero (j : S32x50x2048.Idx) (a : Fin 4) : logitsDims.batchCoord j a = 0 :=
  GatherDims.batchCoord_eq_zero _ _ _ List.not_mem_nil

/-- Operand axis 0 (the heads): the start index's first component, read signed and clamped into [0, 15]. -/
theorem logits_axis0 (idx : IVec S32x2 32) (j : S32x50x2048.Idx) :
    logitsDims.start j idx (0 : Fin 4) + logitsDims.batchCoord j (0 : Fin 4) + logitsDims.offCoord j (0 : Fin 4)
      = min (idx (ix2 (n0 := 32) (n1 := 2) (j 0) 0)).toInt.toNat 15 := by
  have hm : (0 : Fin 4) ∈ logitsDims.startIndexMap := List.mem_cons_self ..
  rw [logits_batch_zero, GatherDims.offCoord_eq_zero _ _ _
    (fun h => ((GatherDims.mem_sKept _ _).mp h).1 (List.mem_cons_self ..))]
  simp only [Nat.add_zero]
  unfold GatherDims.start
  rw [dif_pos hm]
  have hsi : logitsDims.siIdx j ⟨List.idxOf (0 : Fin 4) logitsDims.startIndexMap, List.idxOf_lt_length_iff.2 hm⟩
      = ix2 (n0 := 32) (n1 := 2) (j 0) 0 := by
    funext c; refine Fin.ext ?_
    match c with
    | ⟨0, _⟩ => rfl
    | ⟨1, _⟩ => rfl
  rw [hsi]
  rfl

/-- Operand axis 1 (the samples): the start index's second component, read signed and clamped into [0, 31]. -/
theorem logits_axis1 (idx : IVec S32x2 32) (j : S32x50x2048.Idx) :
    logitsDims.start j idx (1 : Fin 4) + logitsDims.batchCoord j (1 : Fin 4) + logitsDims.offCoord j (1 : Fin 4)
      = min (idx (ix2 (n0 := 32) (n1 := 2) (j 0) 1)).toInt.toNat 31 := by
  have hm : (1 : Fin 4) ∈ logitsDims.startIndexMap := List.mem_cons_of_mem _ (List.mem_cons_self ..)
  rw [logits_batch_zero, GatherDims.offCoord_eq_zero _ _ _
    (fun h => ((GatherDims.mem_sKept _ _).mp h).1 (List.mem_cons_of_mem _ (List.mem_cons_self ..)))]
  simp only [Nat.add_zero]
  unfold GatherDims.start
  rw [dif_pos hm]
  have hsi : logitsDims.siIdx j ⟨List.idxOf (1 : Fin 4) logitsDims.startIndexMap, List.idxOf_lt_length_iff.2 hm⟩
      = ix2 (n0 := 32) (n1 := 2) (j 0) 1 := by
    funext c; refine Fin.ext ?_
    match c with
    | ⟨0, _⟩ => rfl
    | ⟨1, _⟩ => rfl
  rw [hsi]
  rfl

/-- Operand axis 2 (the classes): the result's coordinate on its axis 1. -/
theorem logits_axis2 (idx : IVec S32x2 32) (j : S32x50x2048.Idx) :
    logitsDims.start j idx (2 : Fin 4) + logitsDims.batchCoord j (2 : Fin 4) + logitsDims.offCoord j (2 : Fin 4) = (j 1).val := by
  have hm : (2 : Fin 4) ∉ logitsDims.startIndexMap := by decide
  rw [logits_batch_zero]
  unfold GatherDims.start
  rw [dif_neg hm]
  simp only [Nat.add_zero, Nat.zero_add]
  have hk : (2 : Fin 4) ∈ logitsDims.sKept := by decide
  unfold GatherDims.offCoord
  rw [dif_pos hk]
  rfl

/-- Operand axis 3 (the points): the result's coordinate on its axis 2. -/
theorem logits_axis3 (idx : IVec S32x2 32) (j : S32x50x2048.Idx) :
    logitsDims.start j idx (3 : Fin 4) + logitsDims.batchCoord j (3 : Fin 4) + logitsDims.offCoord j (3 : Fin 4) = (j 2).val := by
  have hm : (3 : Fin 4) ∉ logitsDims.startIndexMap := by decide
  rw [logits_batch_zero]
  unfold GatherDims.start
  rw [dif_neg hm]
  simp only [Nat.add_zero, Nat.zero_add]
  have hk : (3 : Fin 4) ∈ logitsDims.sKept := by decide
  unfold GatherDims.offCoord
  rw [dif_pos hk]
  rfl

/-- The gathered logits at (b, p, n) are the argument's at (head of label b, b, p, n). -/
theorem logits_apply (x0 : (⟨S16x32x50x2048, .f32⟩ : BufTy).Contents (Elt F)) (x2 : (⟨S32, .i32⟩ : BufTy).Contents (Elt F))
    (hsl : ∀ i : S32.Idx, (x2 i).toNat < 16) (b : Fin 32) (p : Fin 50) (n : Fin 2048) :
    val_main_v14 (F := F) x0 x2 (ix3 b p n) = x0 (ix4 (Cert.CrossEntropy.head (x2 (ix1 b))) b p n) := by
  have hb : b.val < 32 := b.isLt
  have hl : (x2 (ix1 b)).toNat < 16 := hsl _
  -- row b of the start indices is (label of b, b)
  have e0 : val_main_v13 (F := F) x2 (ix2 b (0 : Fin 2)) = x2 (ix1 b) := by rw [logits_row_label, logits_wrap_label _ _ hl]
  have e1 : val_main_v13 (F := F) x2 (ix2 b (1 : Fin 2)) = BitVec.ofNat 32 b.val := by rw [logits_row_sample, logits_wrap_sample]
  unfold val_main_v14 Host.gather
  refine congrArg x0 ?_
  funext a
  refine Fin.ext ?_
  show logitsDims.start (ix3 b p n) (val_main_v13 (F := F) x2) a + logitsDims.batchCoord (ix3 b p n) a + logitsDims.offCoord (ix3 b p n) a = _
  match a with
  | ⟨0, _⟩ =>
    -- the label is below 16: non-negative as a signed number, and the clamp into [0, 15] keeps it
    refine (logits_axis0 _ _).trans ?_
    show min (val_main_v13 (F := F) x2 (ix2 b (0 : Fin 2))).toInt.toNat 15 = (Cert.CrossEntropy.head (x2 (ix1 b))).val
    rw [e0, Cert.CrossEntropy.head_val hl, StableHlo.Predicate.toInt_eq_toNat_of_lt (by omega), Int.toNat_natCast]
    omega
  | ⟨1, _⟩ =>
    -- the sample's number is below 32: the clamp into [0, 31] keeps it
    refine (logits_axis1 _ _).trans ?_
    show min (val_main_v13 (F := F) x2 (ix2 b (1 : Fin 2))).toInt.toNat 31 = b.val
    rw [e1, StableHlo.Predicate.toInt_ofNat_small _ (by omega), Int.toNat_natCast]
    omega
  | ⟨2, _⟩ => exact logits_axis2 _ _
  | ⟨3, _⟩ => exact logits_axis3 _ _

end Cert.ReferenceIdeal.Point

end
-- ==== Proof.RefLogSoftmax.lean ====
/-
  The reference's `log_softmax` over the class axis, read at an index: at (b, p, n) it is the log-probability of class
  `p` over the column (b, ·, n) of the gathered logits.
-/
import proofs.«425126_j28492813041772_1_alg».proof.Proof.RefRead
import proofs.«425126_j28492813041772_1_alg».proof.Proof.CrossEntropy
import Idealize.ShloMosaic.Lib.ValueIdx
import Idealize.ShloMosaic.PureOps.Ideal.Laws

noncomputable section

namespace Cert.ReferenceIdeal.Point

open Idealize.ShloMosaic Idealize.ShloMosaic.ValueIdx Cert.ReferenceIdeal Cert.ReferenceIdeal.Gen Cert.ReferenceIdeal.Read

/-- The reduced index (b, n) with class `k` put back on the class axis is (b, k, n). -/
theorem logsoftmax_lift (h : S32x50x2048.Reduces [1] S32x2048) (b : Fin 32) (n : Fin 2048) (k : Fin (S32x50x2048.size 1)) :
    h.lift (ix2 b n) k = ix3 b (⟨k.val, k.isLt⟩ : Fin 50) n := by
  funext c; apply Fin.ext
  fin_cases c <;> rfl

/-- Taking the maximum with −∞ changes nothing. -/
theorem logsoftmax_max_negInf (y : EReal) : max (Ideal.ofBits .f32 0xFF800000#32) y = y := by
  simp [Ideal.ofBits, Ideal.ieee]

/-- The column maximum at (b, n): the maximum from −∞ of the gathered column (b, ·, n). -/
theorem logsoftmax_colmax (x0 : (⟨S16x32x50x2048, .f32⟩ : BufTy).Contents (Elt Ideal)) (x2 : (⟨S32, .i32⟩ : BufTy).Contents (Elt Ideal))
    (b : Fin 32) (n : Fin 2048) :
    val_main_call0_v2 (F := Ideal) x0 x2 (ix2 b n)
      = Cert.CrossEntropy.colMax (fun q => val_main_v14 (F := Ideal) x0 x2 (ix3 b q n)) := by
  have h : S32x50x2048.Reduces [1] S32x2048 := by decide
  rw [val_main_call0_v2_apply, val_main_call0_v1_apply, val_main_call0_cst_0_apply]
  unfold val_main_call0_v0
  rw [Host.reduce_eq_fold_single FloatOps.maximumf _ _ reducesTo_S32x50x2048_S32x2048_d1 h h_S_]
  rw [Ideal.maximumf_def, Ideal.ofBits_def, logsoftmax_max_negInf]
  have hf : (val_main_v14 (F := Ideal) x0 x2 ∘ h.lift (ix2 b n))
      = fun q : Fin 50 => val_main_v14 (F := Ideal) x0 x2 (ix3 b q n) :=
    funext fun k => congrArg (val_main_v14 (F := Ideal) x0 x2) (logsoftmax_lift h b n k)
  unfold Cert.CrossEntropy.colMax
  exact congrArg (fun f => Finset.fold max (Ideal.ofBits .f32 0xFF800000#32) f (Finset.univ : Finset (Fin 50))) hf

/-- Through the two broadcasts of the column maximum, the index (b, p, n) reads the maximum at (b, n). -/
theorem logsoftmax_idx_max (b : Fin 32) (p : Fin 50) (n : Fin 2048) :
    idx_main_call0_v3 (idx_main_call0_v4 (ix3 b p n)) = ix2 b n := by
  funext a; apply Fin.ext
  match a with
  | ⟨0, _⟩ => rfl
  | ⟨1, _⟩ => rfl

/-- Through the two broadcasts of the logarithm, the index (b, p, n) reads the sum at (b, n). -/
theorem logsoftmax_idx_sum (b : Fin 32) (p : Fin 50) (n : Fin 2048) :
    idx_main_call0_v8 (idx_main_call0_v10 (ix3 b p n)) = ix2 b n := by
  funext a; apply Fin.ext
  match a with
  | ⟨0, _⟩ => rfl
  | ⟨1, _⟩ => rfl

/-- The k-th term of the sum at (b, n) is read at (b, k, n). -/
theorem logsoftmax_idx_term (b : Fin 32) (n : Fin 2048) (k : Fin 50) :
    idx_main_call0_v7 (ix2 b n) k = ix3 b k n := by
  funext a; apply Fin.ext
  match a with
  | ⟨0, _⟩ => rfl
  | ⟨1, _⟩ => rfl
  | ⟨2, _⟩ => rfl

/-- The shifted entry at (b, p, n): the gathered logit less its column's maximum. -/
theorem logsoftmax_shifted (x0 : (⟨S16x32x50x2048, .f32⟩ : BufTy).Contents (Elt Ideal)) (x2 : (⟨S32, .i32⟩ : BufTy).Contents (Elt Ideal))
    (b : Fin 32) (p : Fin 50) (n : Fin 2048) :
    val_main_call0_v5 (F := Ideal) x0 x2 (ix3 b p n)
      = Cert.CrossEntropy.shifted (fun q => val_main_v14 (F := Ideal) x0 x2 (ix3 b q n)) p := by
  rw [val_main_call0_v5_apply, val_main_call0_v4_apply, val_main_call0_v3_apply, logsoftmax_idx_max, logsoftmax_colmax, Ideal.subf_def]
  rfl

/-- The sum at (b, n): the sum over the classes of the exponentials of the shifted column. -/
theorem logsoftmax_sumexp (x0 : (⟨S16x32x50x2048, .f32⟩ : BufTy).Contents (Elt Ideal)) (x2 : (⟨S32, .i32⟩ : BufTy).Contents (Elt Ideal))
    (b : Fin 32) (n : Fin 2048) :
    val_main_call0_v7 (F := Ideal) x0 x2 (ix2 b n)
      = ∑ k : Fin 50, Ideal.exp (Cert.CrossEntropy.shifted (fun q => val_main_v14 (F := Ideal) x0 x2 (ix3 b q n)) k) := by
  rw [val_main_call0_v7_apply, val_main_call0_cst_1_apply, Ideal.ofBits_def, Ideal.ofBits_zero_f32, zero_add]
  refine Finset.sum_congr rfl fun k _ => ?_
  rw [val_main_call0_v6_apply, logsoftmax_idx_term, logsoftmax_shifted, Ideal.hostUnary_exp_def]

/-- The log-softmax at (b, p, n) is `logProb` of the gathered column at `p`. -/
theorem logsoftmax_apply (x0 : (⟨S16x32x50x2048, .f32⟩ : BufTy).Contents (Elt Ideal)) (x2 : (⟨S32, .i32⟩ : BufTy).Contents (Elt Ideal))
    (b : Fin 32) (p : Fin 50) (n : Fin 2048) :
    val_main_v15 (F := Ideal) x0 x2 (ix3 b p n)
      = Cert.CrossEntropy.logProb (fun q => val_main_v14 (F := Ideal) x0 x2 (ix3 b q n)) p := by
  rw [val_main_v15_apply, val_main_call0_v10_apply, val_main_call0_v9_apply, val_main_call0_v8_apply, logsoftmax_idx_sum,
    logsoftmax_sumexp, logsoftmax_shifted, Ideal.subf_def, Ideal.hostUnary_log_def]
  rfl

end Cert.ReferenceIdeal.Point

end
-- ==== Proof.RefTake.lean ====
/-
  The reference's `take_along_axis`, read at an index: at (b, 0, n) it is the log-probabilities at the class the
  point's label names (a label word below 50 is in range: the validity mask is set, no wrap-around, no clamping).
-/
import proofs.«425126_j28492813041772_1_alg».proof.Proof.RefRead
import proofs.«425126_j28492813041772_1_alg».proof.Proof.CrossEntropy
import Idealize.ShloMosaic.Lib.ValueIdx

noncomputable section

namespace Cert.ReferenceIdeal.Point

open Idealize.ShloMosaic Idealize.ShloMosaic.ValueIdx Cert.ReferenceIdeal Cert.ReferenceIdeal.Gen Cert.ReferenceIdeal.Read

variable {F : FTy → Type} [FloatOps F]

/-! ## A label word below 50 -/

/-- Read as a signed integer, a word below 50 is its value. -/
theorem take_toInt_label {w : BitVec 32} (h : w.toNat < 50) : w.toInt = (w.toNat : Int) := by
  rw [BitVec.toInt_eq_toNat_cond, if_pos (by omega)]

/-- Such a word is not negative, so the wrap-around of a negative index leaves it alone. -/
theorem take_wrap_label {w : BitVec 32} (h : w.toNat < 50) :
    Scalar.select (IntOp.cmpi .slt w 0#32) (IntOp.addi w 50#32) w = w := by
  unfold Scalar.select
  rw [if_neg]
  intro hc
  have h1 := IntOp.cmpi_slt.1 hc
  rw [take_toInt_label h] at h1
  have h0 : (0#32 : BitVec 32).toInt = 0 := by decide
  rw [h0] at h1
  omega

/-- Such a word lies in [0, 49], read signed: both bounds of the validity test hold. -/
theorem take_valid_label {w : BitVec 32} (h : w.toNat < 50) :
    IntOp.andi (IntOp.cmpi .sge w 0#32) (IntOp.cmpi .sle w 49#32) = 1#1 := by
  have h0 : (0#32 : BitVec 32).toInt = 0 := by decide
  have h49 : (49#32 : BitVec 32).toInt = 49 := by decide
  refine IntOp.andi_eq_one.2 ⟨IntOp.cmpi_sge.2 ?_, IntOp.cmpi_sle.2 ?_⟩
  · rw [take_toInt_label h, h0]; omega
  · rw [take_toInt_label h, h49]; omega

/-! ## The index array of the gather -/

/-- The wrapped index at a point is the point's label itself. -/
theorem take_index_label (x1 : (⟨S32x2048, .i32⟩ : BufTy).Contents (Elt F)) (hpl : ∀ i : S32x2048.Idx, (x1 i).toNat < 50)
    (k : S32x1x2048.Idx) : val_main_call1_v4 (F := F) x1 k = x1 (idx_main_v16 k) := by
  rw [val_main_call1_v4_apply, val_main_call1_v1_apply, val_main_call1_v3_apply, val_main_v16_apply,
    val_main_call1_v0_apply, val_main_call1_c_apply, val_main_call1_v2_apply, val_main_call1_c_0_apply]
  exact take_wrap_label (hpl _)

/-- The validity mask before its reduction is set everywhere. -/
theorem take_mask_elem (x1 : (⟨S32x2048, .i32⟩ : BufTy).Contents (Elt F)) (hpl : ∀ i : S32x2048.Idx, (x1 i).toNat < 50)
    (i : S32x1x2048x1.Idx) : val_main_call1_v11 (F := F) x1 i = 1#1 := by
  rw [val_main_call1_v11_apply, val_main_call1_v7_apply, val_main_call1_v10_apply, val_main_call1_v5_apply,
    take_index_label x1 hpl, val_main_call1_v6_apply, val_main_call1_c_2_apply, val_main_call1_v9_apply,
    val_main_call1_v8_apply, val_main_call1_c_1_apply]
  exact take_valid_label (hpl _)

/-- A left fold by `and` from 1 over words that are all 1 is 1. -/
theorem take_foldl_andi_one {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons]
    exact take_foldl_andi_one f hf l _ (IntOp.andi_eq_one.2 ⟨h, hf a⟩)

/-- The reduced validity mask is set everywhere. -/
theorem take_mask (x1 : (⟨S32x2048, .i32⟩ : BufTy).Contents (Elt F)) (hpl : ∀ i : S32x2048.Idx, (x1 i).toNat < 50)
    (j : S32x1x2048.Idx) : val_main_call1_v12 (F := F) x1 j = 1#1 := by
  unfold val_main_call1_v12
  rw [Host.reduce_eq_foldl]
  exact take_foldl_andi_one _ (take_mask_elem x1 hpl) _ _ rfl

/-! ## The gather read at an index

Operand axes 0 and 2 are batching axes, axis 1 is collapsed and is the one the start index names; there are no offset
axes. So on axes 0 and 2 the operand index is the result's coordinate, and on axis 1 it is the start index read signed
and clamped into [0, 49]. -/

local notation "G" => gather_S32x50x2048_S32x1x2048x1_S32x1x2048_n_1_02_02_1_3_111

/-- Every operand axis is collapsed or batching: no offset coordinate anywhere. -/
theorem take_off (j : S32x1x2048.Idx) (a : Fin 3) : GatherDims.offCoord G j a = 0 := by
  refine GatherDims.offCoord_eq_zero _ _ _ (fun h => ?_)
  have h' := (GatherDims.mem_sKept _ _).mp h
  have hall : ∀ a : Fin 3, a ∈ GatherDims.collapsedSliceDims G ∨ a ∈ GatherDims.operandBatchingDims G := by decide
  rcases hall a with hc | hb
  · exact h'.1 hc
  · exact h'.2 hb

/-- On batching axis 0 the batching coordinate is the result's coordinate 0. -/
theorem take_batch0 (j : S32x1x2048.Idx) : GatherDims.batchCoord G j 0 = (j 0).val := by
  unfold GatherDims.batchCoord
  rw [dif_pos (show (0 : Fin 3) ∈ GatherDims.operandBatchingDims G by decide)]
  rfl

/-- On batching axis 2 the batching coordinate is the result's coordinate 2. -/
theorem take_batch2 (j : S32x1x2048.Idx) : GatherDims.batchCoord G j 2 = (j 2).val := by
  unfold GatherDims.batchCoord
  rw [dif_pos (show (2 : Fin 3) ∈ GatherDims.operandBatchingDims G by decide)]
  rfl

/-- Axis 1 is not a batching axis. -/
theorem take_batch1 (j : S32x1x2048.Idx) : GatherDims.batchCoord G j 1 = 0 :=
  GatherDims.batchCoord_eq_zero _ _ _ (by decide)

/-- The start on a batching axis is 0. -/
theorem take_start0 {w : Nat} (j : S32x1x2048.Idx) (idx : IVec S32x1x2048x1 w) : GatherDims.start G j idx 0 = 0 :=
  GatherDims.start_batching _ _ _ _ (by decide)
theorem take_start2 {w : Nat} (j : S32x1x2048.Idx) (idx : IVec S32x1x2048x1 w) : GatherDims.start G j idx 2 = 0 :=
  GatherDims.start_batching _ _ _ _ (by decide)

/-- The start on axis 1: the start index at (j0, j1, j2, 0), read signed and clamped into [0, 49]. -/
theorem take_start1 {w : Nat} (j : S32x1x2048.Idx) (idx : IVec S32x1x2048x1 w) :
    GatherDims.start G j idx 1 = min (idx (ix4 (j 0) (j 1) (j 2) (0 : Fin 1))).toInt.toNat 49 := by
  unfold GatherDims.start
  rw [dif_pos (show (1 : Fin 3) ∈ GatherDims.startIndexMap G by decide)]
  have hsi : GatherDims.siIdx G j ⟨List.idxOf (1 : Fin 3) (GatherDims.startIndexMap G),
      List.idxOf_lt_length_iff.2 (by decide)⟩ = ix4 (j 0) (j 1) (j 2) (0 : Fin 1) := by
    funext b; refine Fin.ext ?_
    match b with
    | ⟨0, _⟩ => rfl
    | ⟨1, _⟩ => rfl
    | ⟨2, _⟩ => rfl
    | ⟨3, _⟩ => rfl
  rw [hsi]
  rfl

/-- The operand index of the gather at (b, 0, n), when the start index there is a word below 50: (b, that word, n). -/
theorem take_operandIdx (idx : IVec S32x1x2048x1 32) (b : Fin 32) (n : Fin 2048) (c : Fin 50)
    (hw : (idx (ix4 b (0 : Fin 1) n (0 : Fin 1))).toNat < 50)
    (hc : c.val = (idx (ix4 b (0 : Fin 1) n (0 : Fin 1))).toNat) :
    GatherDims.operandIdx G (ix3 b (0 : Fin 1) n) idx = ix3 b c n := by
  funext a
  refine Fin.ext ?_
  match a with
  | ⟨0, _⟩ =>
    show GatherDims.start G (ix3 b (0 : Fin 1) n) idx 0 + GatherDims.batchCoord G (ix3 b (0 : Fin 1) n) 0
      + GatherDims.offCoord G (ix3 b (0 : Fin 1) n) 0 = b.val
    rw [take_start0, take_batch0, take_off]
    show 0 + b.val + 0 = b.val
    omega
  | ⟨1, _⟩ =>
    show GatherDims.start G (ix3 b (0 : Fin 1) n) idx 1 + GatherDims.batchCoord G (ix3 b (0 : Fin 1) n) 1
      + GatherDims.offCoord G (ix3 b (0 : Fin 1) n) 1 = c.val
    rw [take_start1, take_batch1, take_off, hc]
    show min (idx (ix4 b (0 : Fin 1) n (0 : Fin 1))).toInt.toNat 49 + 0 + 0 = _
    have ht : (idx (ix4 b (0 : Fin 1) n (0 : Fin 1))).toInt.toNat = (idx (ix4 b (0 : Fin 1) n (0 : Fin 1))).toNat := by
      rw [take_toInt_label hw]; exact Int.toNat_natCast _
    rw [ht]
    omega
  | ⟨2, _⟩ =>
    show GatherDims.start G (ix3 b (0 : Fin 1) n) idx 2 + GatherDims.batchCoord G (ix3 b (0 : Fin 1) n) 2
      + GatherDims.offCoord G (ix3 b (0 : Fin 1) n) 2 = n.val
    rw [take_start2, take_batch2, take_off]
    show 0 + n.val + 0 = n.val
    omega

/-- The start index array at (b, 0, n, 0) is the label of the point (b, n). -/
theorem take_index_point (x1 : (⟨S32x2048, .i32⟩ : BufTy).Contents (Elt F)) (hpl : ∀ i : S32x2048.Idx, (x1 i).toNat < 50)
    (b : Fin 32) (n : Fin 2048) :
    val_main_call1_v5 (F := F) x1 (ix4 b (0 : Fin 1) n (0 : Fin 1)) = x1 (ix2 b n) := by
  rw [val_main_call1_v5_apply, take_index_label x1 hpl]
  congr 1
  funext a
  refine Fin.ext ?_
  have hn : n.val < 2048 := n.isLt
  match a with
  | ⟨0, _⟩ =>
    show (((b.val * 1 + 0) * 2048 + n.val) * 1 + 0) / 2048 = b.val
    omega
  | ⟨1, _⟩ =>
    show (((b.val * 1 + 0) * 2048 + n.val) * 1 + 0) % 2048 = n.val
    omega

/-- The taken value at (b, 0, n) is the log-probability array at (b, class of label (b, n), n). -/
theorem take_apply (x0 : (⟨S16x32x50x2048, .f32⟩ : BufTy).Contents (Elt F)) (x1 : (⟨S32x2048, .i32⟩ : BufTy).Contents (Elt F))
    (x2 : (⟨S32, .i32⟩ : BufTy).Contents (Elt F)) (hpl : ∀ i : S32x2048.Idx, (x1 i).toNat < 50) (b : Fin 32) (n : Fin 2048) :
    val_main_v17 (F := F) x0 x1 x2 (ix3 b (0 : Fin 1) n)
      = val_main_v15 (F := F) x0 x2 (ix3 b (Cert.CrossEntropy.cls (x1 (ix2 b n))) n) := by
  rw [val_main_v17_apply, take_mask x1 hpl, select_one]
  unfold val_main_call1_v13 Host.gather
  refine congrArg _ (take_operandIdx _ b n _ ?_ ?_)
  · rw [take_index_point x1 hpl]; exact hpl _
  · rw [take_index_point x1 hpl]; exact Cert.CrossEntropy.cls_val (hpl _)

end Cert.ReferenceIdeal.Point

end
-- ==== Proof.RefValue.lean ====
/-
  The reference's result, read: before the final total and division, the array it totals holds at (b, n) the loss of
  sample `b` at point `n` — the negated log-probability, at the point's label, of the column of the head the sample's
  shape label selects. Three readings compose: the logits gathered by shape label, the log-softmax over the class
  axis, and the value taken at the point's label.
-/
import proofs.«425126_j28492813041772_1_alg».proof.Proof.RefGather
import proofs.«425126_j28492813041772_1_alg».proof.Proof.RefLogSoftmax
import proofs.«425126_j28492813041772_1_alg».proof.Proof.RefTake

noncomputable section

namespace Cert.ReferenceIdeal.Point

open Idealize.ShloMosaic Idealize.ShloMosaic.ValueIdx Cert.ReferenceIdeal Cert.ReferenceIdeal.Gen Cert.ReferenceIdeal.Read

/-- The array the reference totals, at (b, n): the loss of sample `b` at point `n`. -/
theorem negated_ix (x0 : (⟨S16x32x50x2048, .f32⟩ : BufTy).Contents (Elt Ideal)) (x1 : (⟨S32x2048, .i32⟩ : BufTy).Contents (Elt Ideal))
    (x2 : (⟨S32, .i32⟩ : BufTy).Contents (Elt Ideal)) (hsl : ∀ i : S32.Idx, (x2 i).toNat < 16)
    (hpl : ∀ i : S32x2048.Idx, (x1 i).toNat < 50) (b : Fin 32) (n : Fin 2048) :
    val_main_v19 (F := Ideal) x0 x1 x2 (ix2 b n) = Cert.CrossEntropy.loss x0 x1 x2 b n := by
  have hb : b.val < 32 := b.isLt
  have hn : n.val < 2048 := n.isLt
  have e : idx_main_v18 (ix2 b n) = ix3 b (0 : Fin 1) n := funext fun a => Fin.ext (by
    match a with
    | ⟨0, _⟩ => show (b.val * 2048 + n.val) / 2048 = b.val; omega
    | ⟨1, _⟩ => rfl
    | ⟨2, _⟩ => show (b.val * 2048 + n.val) % 2048 = n.val; omega)
  rw [val_main_v19_apply, val_main_v18_apply, e, take_apply x0 x1 x2 hpl, logsoftmax_apply]
  simp only [logits_apply x0 x2 hsl]
  rfl

/-- The same at any index of [32, 2048]. -/
theorem negated_apply (x0 : (⟨S16x32x50x2048, .f32⟩ : BufTy).Contents (Elt Ideal)) (x1 : (⟨S32x2048, .i32⟩ : BufTy).Contents (Elt Ideal))
    (x2 : (⟨S32, .i32⟩ : BufTy).Contents (Elt Ideal)) (hsl : ∀ i : S32.Idx, (x2 i).toNat < 16)
    (hpl : ∀ i : S32x2048.Idx, (x1 i).toNat < 50) (j : S32x2048.Idx) :
    val_main_v19 (F := Ideal) x0 x1 x2 j = Cert.CrossEntropy.loss x0 x1 x2 (j (0 : Fin 2)) (j (1 : Fin 2)) := by
  obtain ⟨b, n, rfl⟩ : ∃ (b : Fin 32) (n : Fin 2048), j = ix2 b n := ⟨j 0, j 1, eq_ix2 j⟩
  exact negated_ix x0 x1 x2 hsl hpl b n

end Cert.ReferenceIdeal.Point

end
-- ==== Proof.lean ====
/-
  The certificate: a Pallas kernel that computes the multi-head cross-entropy loss of 32 samples of 2048 points over
  50 classes, choosing each sample's head of logits by its shape label, against a jnp reference that gathers the same
  logits, takes `log_softmax` over the class axis and picks the log-probability at each point's label.

  Under the precondition — the logits finite, every shape label one of the 16 heads, every point label one of the 50
  classes — both programs return the mean over the 32 × 2048 points of the loss `−logProb (column) (label)`:
  * the kernel masks each column of log-probabilities with the one-hot row of the label and sums it, which is the
    entry at the label, and negates by subtracting from 0 (module KernelPoint); its 32 grid points write the 32 rows
    of a [32, 1, 2048] array (KernelValue, KernelRun), which the host lines total and divide by 65536;
  * the reference gathers (RefGather), normalises (RefLogSoftmax) and takes (RefTake) to the same losses over
    [32, 2048] (RefValue), totals and divides by the same constant (its run: RefRun);
  * the two totals agree by re-indexing [32, 1, 2048] as [32, 2048] (CrossEntropy). No law used needs finiteness.
  The kernel's block of logits at a point is chosen by a prefetched table, so its frame holds under the side
  condition that every chosen block lies in the array: the labels' range gives it (KernelOk, KernelIdealOk, PreRanges).
-/
import proofs.«425126_j28492813041772_1_alg».proof.Defs
import proofs.«425126_j28492813041772_1_alg».proof.Proof.Gen.Kernel
import proofs.«425126_j28492813041772_1_alg».proof.Proof.Gen.Kernel.Frame
import proofs.«425126_j28492813041772_1_alg».proof.Proof.Gen.KernelIdeal
import proofs.«425126_j28492813041772_1_alg».proof.Proof.Gen.KernelIdeal.Frame
import proofs.«425126_j28492813041772_1_alg».proof.Proof.Gen.ReferenceIdeal
import proofs.«425126_j28492813041772_1_alg».proof.Proof.Gen.Pre_finite_inputs
import proofs.«425126_j28492813041772_1_alg».proof.Proof.KernelOk
import proofs.«425126_j28492813041772_1_alg».proof.Proof.KernelIdealOk
import proofs.«425126_j28492813041772_1_alg».proof.Proof.KernelRun
import proofs.«425126_j28492813041772_1_alg».proof.Proof.RefRun
import proofs.«425126_j28492813041772_1_alg».proof.Proof.RefValue
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ h =>
  Cert.Kernel.Gen.frame m ρ (Cert.Kernel.OkOfPre.ok_of_pre m h)

theorem frame_kernelIdeal : Cert.frame_KernelIdeal := fun m ρ h =>
  Cert.KernelIdeal.Gen.frame m ρ (Cert.KernelIdeal.OkOfPre.ok_of_pre m h)

theorem frame_reference : Cert.frame_ReferenceIdeal := fun m ρ _ =>
  (θ_run Cert.ReferenceIdeal.defs _ _).mono (fun _ h c => (h c).2) (Cert.ReferenceIdeal.Staged.run (F := Ideal) m ρ)

/-- The two programs' totals: the reference's total over [32, 2048] of its negated taken values is the kernel's total
    over [32, 1, 2048] of the loss array, when the labels are in range. -/
theorem totals_eq (x0 : (⟨Cert.ReferenceIdeal.S16x32x50x2048, .f32⟩ : BufTy).Contents (Elt Ideal))
    (x1 : (⟨Cert.ReferenceIdeal.S32x2048, .i32⟩ : BufTy).Contents (Elt Ideal))
    (x2 : (⟨Cert.ReferenceIdeal.S32, .i32⟩ : BufTy).Contents (Elt Ideal))
    (hsl : ∀ i : Cert.ReferenceIdeal.S32.Idx, (x2 i).toNat < 16) (hpl : ∀ i : Cert.ReferenceIdeal.S32x2048.Idx, (x1 i).toNat < 50) :
    Host.reduceAdd (F := Ideal) (Cert.ReferenceIdeal.Read.val_main_v19 (F := Ideal) x0 x1 x2)
        (constant (F := Ideal) Cert.ReferenceIdeal.S_ .f32 0x00000000#32)
        Cert.ReferenceIdeal.Facts₀.reducesTo_S32x2048_S_d0_1 Cert.ReferenceIdeal.Facts₀.h_S_
      = Host.reduceAdd (F := Ideal)
          (fun i : Cert.KernelIdeal.S32x1x2048.Idx => Cert.CrossEntropy.loss x0 x1 x2 (i (0 : Fin 3)) (i (2 : Fin 3)))
          (constant (F := Ideal) Cert.KernelIdeal.S_ .f32 0x00000000#32)
          Cert.KernelIdeal.Facts₀.reducesTo_S32x1x2048_S_d0_1_2 Cert.KernelIdeal.Facts₀.h_S_ := by
  funext i
  simp only [Host.reduceAdd, Ideal.hostReduceAdd_def]
  rw [Ideal.hostReduceAdd_total Cert.ReferenceIdeal.Facts₀.reducesTo_S32x2048_S_d0_1 (fun b => b.elim0),
    Ideal.hostReduceAdd_total Cert.KernelIdeal.Facts₀.reducesTo_S32x1x2048_S_d0_1_2 (fun b => b.elim0)]
  refine congrArg (_ + ·) ?_
  rw [Cert.CrossEntropy.sum_rank3_eq_rank2 (fun b n => Cert.CrossEntropy.loss x0 x1 x2 b n)]
  exact Finset.sum_congr rfl fun j _ => Cert.ReferenceIdeal.Point.negated_apply x0 x1 x2 hsl hpl j

theorem algebraic : Cert.algebraic_KernelIdeal_ReferenceIdeal := by
  intro m ρ m' ρ' hpre hagree
  have hO := Cert.KernelIdeal.OkOfPre.ok_of_pre m hpre
  have hr := fun c : Dev Cert.KernelIdeal.nD => Cert.PreRanges.ranges _ _ _ (hpre c)
  refine ⟨fun c => Cert.KernelIdeal.Hand.mean m c, Cert.KernelIdeal.Hand.run m ρ hO (fun c => (hr c).2), ?_⟩
  refine (θ_run Cert.ReferenceIdeal.defs _ _).mono (fun _ h c => ⟨(h c).1.trans ?_, (h c).2⟩)
    (Cert.ReferenceIdeal.Staged.run (F := Ideal) m' ρ')
  rw [(hagree c).1, (hagree c).2.1, (hagree c).2.2]
  unfold Cert.ReferenceIdeal.Read.val_main_v21 Cert.ReferenceIdeal.Read.val_main_v20 Cert.KernelIdeal.Hand.mean
    Cert.KernelIdeal.Hand.lossArr
  exact congrArg (fun z => Host.divf (F := Ideal) z (constant (F := Ideal) Cert.ReferenceIdeal.S_ .f32 0x47800000#32))
    (totals_eq _ _ _ (hr c).1 (hr c).2)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
